-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x2048 : Shape := ⟨3, ![8, 128, 2048]⟩
abbrev S128x64 : Shape := ⟨2, ![128, 64]⟩
abbrev S_ : Shape := ⟨0, ![]⟩

class Facts : Prop where
  bcast_S_S8x128x2048 : S_.BroadcastsInDim S8x128x2048 (![] : Fin 0 → Fin S8x128x2048.rank)
  reducesTo_S8x128x2048_S_d0_1_2 : S8x128x2048.ReducesTo [0, 1, 2] S_
  h_S_ : 0 < S_.numel
  bcast_S_S128x64 : S_.BroadcastsInDim S128x64 (![] : Fin 0 → Fin S128x64.rank)
  reducesTo_S128x64_S_d0_1 : S128x64.ReducesTo [0, 1] S_

variable [Facts]

def fn {F : FTy → Type} [FloatOps F] (main_arg0 : FVec F S8x128x2048 .f32) (main_arg1 : FVec F S128x64 .f32) (main_arg2 : FVec F S128x64 .f32) : IVec S_ 1 :=
  let main_v0 : FVec F S8x128x2048 .f32 := Host.absf main_arg0
  let main_cst : FVec F S_ .f32 := constant S_ .f32 0x7F800000#32
  let main_v1 : FVec F S8x128x2048 .f32 := broadcastInDim S8x128x2048 ![] bcast_S_S8x128x2048 main_cst
  let main_v2 : IVec S8x128x2048 1 := cmpf .olt main_v0 main_v1
  let main_c : IVec S_ 1 := constantI S_ 1 1#1
  let main_v3 : IVec S_ 1 := (fun x v => Host.reduce IntOp.andi x v reducesTo_S8x128x2048_S_d0_1_2 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  main_v13
-- ==== Kernel.lean ====
abbrev S8x128x2048 : Shape := ⟨3, ![8, 128, 2048]⟩
abbrev S128x64 : Shape := ⟨2, ![128, 64]⟩
abbrev S8x2048x2048 : Shape := ⟨3, ![8, 2048, 2048]⟩
abbrev S1x128x2048 : Shape := ⟨3, ![1, 128, 2048]⟩
abbrev S1x2048x512 : Shape := ⟨3, ![1, 2048, 512]⟩
abbrev S128x2048 : Shape := ⟨2, ![128, 2048]⟩
abbrev S64x2048 : Shape := ⟨2, ![64, 2048]⟩
abbrev S1x128x512 : Shape := ⟨3, ![1, 128, 512]⟩
abbrev S128x512 : Shape := ⟨2, ![128, 512]⟩
abbrev S64x512 : Shape := ⟨2, ![64, 512]⟩
abbrev S2048x512 : Shape := ⟨2, ![2048, 512]⟩
abbrev S512 : Shape := ⟨1, ![512]⟩
abbrev S1x512 : Shape := ⟨2, ![1, 512]⟩

abbrev nBuf : Space → Nat
  | .hbm => 4
  | .vmem => 6
  | .smem => 0
  | _ => 0

abbrev bufTy : (tb : Table) → Fin (tcTables nBuf tb) → BufTy
  | .hbm, ⟨0, _⟩ => ⟨S8x128x2048, .f32⟩
  | .hbm, ⟨1, _⟩ => ⟨S128x64, .f32⟩
  | .hbm, ⟨2, _⟩ => ⟨S128x64, .f32⟩
  | .hbm, ⟨3, _⟩ => ⟨S8x2048x2048, .f32⟩
  | .local _ .vmem, ⟨0, _⟩ => ⟨S128x64, .f32⟩
  | .local _ .vmem, ⟨1, _⟩ => ⟨S128x64, .f32⟩
  | .local _ .vmem, ⟨2, _⟩ => ⟨S1x128x2048, .f32⟩
  | .local _ .vmem, ⟨3, _⟩ => ⟨S1x128x2048, .f32⟩
  | .local _ .vmem, ⟨4, _⟩ => ⟨S1x2048x512, .f32⟩
  | .local _ .vmem, ⟨5, _⟩ => ⟨S1x2048x512, .f32⟩
  | _, _ => ⟨S8x128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c512_i32 : BitVec 32 := 512#32
  let v14 : BitVec 32 := Scalar.muli arg1 c512_i32
  v14
def k0_off1 (i : grid0.Coords) : Fin 3 → Nat :=
  let c0_8 : Index := 0#32
  let c0_9 : Index := 0#32
  let arg1 : BitVec 32 := BitVec.ofNat 32 (i 1).val
  let c512_i32 : BitVec 32 := 512#32
  let v14 : BitVec 32 := Scalar.muli arg1 c512_i32
  let v15 : BitVec 32 := v14
  let v16 : Index := Scalar.indexCast v15
  ![0, 0, v16.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S128x64_S128x64_0_0 : ∀ a, (![0, 0] : Fin 2 → Nat) a + S128x64.size a ≤ S128x64.size a
  h_S128x64 : 0 < S128x64.numel
  bitsLt_bf16_f32 : FTy.bits .bf16 < FTy.bits .f32
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  h_S1x128x512 : 0 < S1x128x512.numel
  shapeCasts_S1x128x512_S128x512 : S1x128x512.ShapeCasts S128x512
  reduces_S2048x512_S512 : S2048x512.Reduces [0] S512
  shapeCasts_S512_S1x512 : S512.ShapeCasts S1x512
  broadcasts_S1x512_S2048x512 : S1x512.Broadcasts S2048x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  shapeCasts_S2048x512_S1x2048x512 : S2048x512.ShapeCasts S1x2048x512
  dot_S128x64_S128x2048_S64x2048_0_0_1_1_n_n_wf : DotDims.WF S128x64 S128x2048 S64x2048 [0] [0] [1] [1] [] []
  dot_S128x64_S128x512_S64x512_0_0_1_1_n_n_wf : DotDims.WF S128x64 S128x512 S64x512 [0] [0] [1] [1] [] []
  dot_S64x2048_S64x512_S2048x512_0_0_1_1_n_n_wf : DotDims.WF S64x2048 S64x512 S2048x512 [0] [0] [1] [1] [] []
  hrank0 : 0 < grid0.rank
  k0_mult1_dvd : ∀ i : grid0.Coords, 128 ∣ (k0_mult1 i).toNat
  k0_off1_inb : ∀ i : grid0.Coords, ∀ a, (k0_off1 i) a + S1x128x512.size a ≤ S1x128x2048.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x64.size a ≤ S128x64.size a
  hwx0_0 : ∀ i : grid0.Coords, EltTy.bits .f32 = 32 ∨ (Rect.block (s := S128x64) S128x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x2048.size a ≤ S8x128x2048.size a
  hwx0_2 : ∀ i : grid0.Coords, EltTy.bits .f32 = 32 ∨ (Rect.block (s := S8x128x2048) S1x128x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x512.size a ≤ S8x2048x2048.size a
  hwx0_3 : ∀ i : grid0.Coords, EltTy.bits .f32 = 32 ∨ (Rect.block (s := S8x2048x2048) S1x2048x512.size (cc0_transform_3 i) (hinb0_3 i)).WholeWords (EltTy.packing .f32)

variable [Facts₀]

def dot_S128x64_S128x2048_S64x2048_0_0_1_1_n_n : DotDims S128x64 S128x2048 S64x2048 where
  lhsContracting := [0]
  rhsContracting := [0]
  lhsNonContracting := [1]
  rhsNonContracting := [1]
  lhsBatch := []
  rhsBatch := []
  wf := dot_S128x64_S128x2048_S64x2048_0_0_1_1_n_n_wf
def dot_S128x64_S128x512_S64x512_0_0_1_1_n_n : DotDims S128x64 S128x512 S64x512 where
  lhsContracting := [0]
  rhsContracting := [0]
  lhsNonContracting := [1]
  rhsNonContracting := [1]
  lhsBatch := []
  rhsBatch := []
  wf := dot_S128x64_S128x512_S64x512_0_0_1_1_n_n_wf
def dot_S64x2048_S64x512_S2048x512_0_0_1_1_n_n : DotDims S64x2048 S64x512 S2048x512 where
  lhsContracting := [0]
  rhsContracting := [0]
  lhsNonContracting := [1]
  rhsNonContracting := [1]
  lhsBatch := []
  rhsBatch := []
  wf := dot_S64x2048_S64x512_S2048x512_0_0_1_1_n_n_wf

abbrev win0_0 : Pipeline.Window sig grid0 :=
  Pipeline.Window.ofSpec (Memref.whole main_arg1) S128x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x128x2048 : Shape := ⟨3, ![8, 128, 2048]⟩
abbrev S128x64 : Shape := ⟨2, ![128, 64]⟩
abbrev S8x2048x128 : Shape := ⟨3, ![8, 2048, 128]⟩
abbrev S8x2048x64 : Shape := ⟨3, ![8, 2048, 64]⟩
abbrev S_ : Shape := ⟨0, ![]⟩
abbrev S8x2048x2048 : Shape := ⟨3, ![8, 2048, 2048]⟩
abbrev S8x2048 : Shape := ⟨2, ![8, 2048]⟩
abbrev S8x1x2048 : Shape := ⟨3, ![8, 1, 2048]⟩

abbrev nBuf : Space → Nat
  | .hbm => 35
  | .vmem => 0
  | .smem => 0
  | _ => 0

abbrev bufTy : (tb : Table) → Fin (tcTables nBuf tb) → BufTy
  | .hbm, ⟨0, _⟩ => ⟨S8x128x2048, .f32⟩
  | .hbm, ⟨1, _⟩ => ⟨S128x64, .f32⟩
  | .hbm, ⟨2, _⟩ => ⟨S128x64, .f32⟩
  | .hbm, ⟨3, _⟩ => ⟨S8x2048x128, .f32⟩
  | .hbm, ⟨4, _⟩ => ⟨S8x2048x64, .f32⟩
  | .hbm, ⟨5, _⟩ => ⟨S_, .f32⟩
  | .hbm, ⟨6, _⟩ => ⟨S8x2048x64, .f32⟩
  | .hbm, ⟨7, _⟩ => ⟨S8x2048x64, .i1⟩
  | .hbm, ⟨8, _⟩ => ⟨S_, .f32⟩
  | .hbm, ⟨9, _⟩ => ⟨S8x2048x64, .f32⟩
  | .hbm, ⟨10, _⟩ => ⟨S8x2048x64, .f32⟩
  | .hbm, ⟨11, _⟩ => ⟨S8x2048x64, .f32⟩
  | .hbm, ⟨12, _⟩ => ⟨S8x2048x64, .f32⟩
  | .hbm, ⟨13, _⟩ => ⟨S_, .f32⟩
  | .hbm, ⟨14, _⟩ => ⟨S8x2048x64, .f32⟩
  | .hbm, ⟨15, _⟩ => ⟨S8x2048x64, .i1⟩
  | .hbm, ⟨16, _⟩ => ⟨S_, .f32⟩
  | .hbm, ⟨17, _⟩ => ⟨S8x2048x64, .f32⟩
  | .hbm, ⟨18, _⟩ => ⟨S8x2048x64, .f32⟩
  | .hbm, ⟨19, _⟩ => ⟨S8x2048x64, .f32⟩
  | .hbm, ⟨20, _⟩ => ⟨S8x2048x2048, .f32⟩
  | .hbm, ⟨21, _⟩ => ⟨S_, .f32⟩
  | .hbm, ⟨22, _⟩ => ⟨S8x2048, .f32⟩
  | .hbm, ⟨23, _⟩ => ⟨S_, .f32⟩
  | .hbm, ⟨24, _⟩ => ⟨S8x2048, .f32⟩
  | .hbm, ⟨25, _⟩ => ⟨S8x2048, .f32⟩
  | .hbm, ⟨26, _⟩ => ⟨S8x1x2048, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S_, .f32⟩
  | .hbm, ⟨31, _⟩ => ⟨S8x2048, .f32⟩
  | .hbm, ⟨32, _⟩ => ⟨S8x1x2048, .f32⟩
  | .hbm, ⟨33, _⟩ => ⟨S8x2048x2048, .f32⟩
  | .hbm, ⟨34, _⟩ => ⟨S8x2048x2048, .f32⟩
  | _, _ => ⟨S8x128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  transposes_S8x128x2048_S8x2048x128_0_2_1 : S8x128x2048.Transposes [0, 2, 1] S8x2048x128
  bcast_S_S8x2048x64 : S_.BroadcastsInDim S8x2048x64 (![] : Fin 0 → Fin S8x2048x64.rank)
  reducesTo_S8x2048x2048_S8x2048_d1 : S8x2048x2048.ReducesTo [1] S8x2048
  h_S_ : 0 < S_.numel
  bcast_S_S8x2048 : S_.BroadcastsInDim S8x2048 (![] : Fin 0 → Fin S8x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  dot_S8x2048x128_S128x64_S8x2048x64_2_0_01_1_n_n_wf : DotDims.WF S8x2048x128 S128x64 S8x2048x64 [2] [0] [0, 1] [1] [] []
  dot_S8x2048x64_S8x2048x64_S8x2048x2048_2_2_1_1_0_0_wf : DotDims.WF S8x2048x64 S8x2048x64 S8x2048x2048 [2] [2] [1] [1] [0] [0]

variable [Facts₀]

def dot_S8x2048x128_S128x64_S8x2048x64_2_0_01_1_n_n : DotDims S8x2048x128 S128x64 S8x2048x64 where
  lhsContracting := [2]
  rhsContracting := [0]
  lhsNonContracting := [0, 1]
  rhsNonContracting := [1]
  lhsBatch := []
  rhsBatch := []
  wf := dot_S8x2048x128_S128x64_S8x2048x64_2_0_01_1_n_n_wf
def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf

class Facts : Prop extends Facts₀ where

variable [Facts]
-- ==== Proof.LibRealClosure.lean ====
/-
  Real-valuedness of extended-real arrays: closure of "is a real number" (neither +∞ nor −∞) under the
  operations a network's programs apply, stated both for the plain extended-real operation and for the
  operation as a program spells it at the ideal float values; with it the values of a few bit patterns,
  the power v ^ (-1/2) at v ≥ 1, the exponential, column maxima and minima, and the min–max normalisation.
-/
import Idealize.ShloMosaic.PureOps.Ideal
import Idealize.ShloMosaic.PureOps.Ideal.Laws
import Idealize.ShloMosaic.Lib.ValueIdx
import Mathlib.Data.EReal.Inv
import Mathlib.Analysis.SpecialFunctions.Pow.Real
import Mathlib.Data.Finset.Fold

open scoped BigOperators

namespace RealClosure

open Idealize.ShloMosaic Idealize.ShloMosaic.ValueIdx

/-- An extended real that is a real number. -/
@[reducible] def IsReal (x : EReal) : Prop := ∃ r : ℝ, x = (r : EReal)

/-! ## Basic facts -/

theorem isReal_coe (r : ℝ) : IsReal (r : EReal) := ⟨r, rfl⟩
theorem isReal_zero : IsReal 0 := ⟨0, rfl⟩
theorem isReal_one : IsReal 1 := ⟨1, rfl⟩
theorem IsReal.ne_top {x : EReal} (h : IsReal x) : x ≠ ⊤ := by
  obtain ⟨r, rfl⟩ := h; exact EReal.coe_ne_top r
theorem IsReal.ne_bot {x : EReal} (h : IsReal x) : x ≠ ⊥ := by
  obtain ⟨r, rfl⟩ := h; exact EReal.coe_ne_bot r
theorem isReal_of_ne {x : EReal} (hb : x ≠ ⊥) (ht : x ≠ ⊤) : IsReal x :=
  ⟨x.toReal, (EReal.coe_toReal ht hb).symm⟩
theorem isReal_iff {x : EReal} : IsReal x ↔ x ≠ ⊥ ∧ x ≠ ⊤ :=
  ⟨fun h => ⟨h.ne_bot, h.ne_top⟩, fun h => isReal_of_ne h.1 h.2⟩
theorem IsReal.coe_toReal {x : EReal} (h : IsReal x) : (x.toReal : EReal) = x :=
  EReal.coe_toReal h.ne_top h.ne_bot
/-- A real-valued family is the coercion of a family of reals. -/
theorem exists_real_fun {ι : Sort*} {f : ι → EReal} (h : ∀ i, IsReal (f i)) : ∃ g : ι → ℝ, f = fun i => (g i : EReal) :=
  ⟨fun i => (f i).toReal, funext fun i => (h i).coe_toReal.symm⟩

/-! ## The plain operations of the extended reals -/

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption
theorem IsReal.ite {p : Prop} [Decidable p] {x y : EReal} (hx : IsReal x) (hy : IsReal y) :
    IsReal (if p then x else y) := by
  split_ifs <;> assumption
theorem isReal_sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))
theorem isReal_sum_univ {ι : Type*} [Fintype ι] (f : ι → EReal) (h : ∀ i, IsReal (f i)) :
    IsReal (∑ i, f i) := isReal_sum _ f fun i _ => h i
/-- A sum of reals is the real sum. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]
/-- A sum over a set with an element, of positive reals, is positive. -/
theorem sum_pos_of_isReal {ι : Type*} (s : Finset ι) (f : ι → EReal) (h : ∀ i ∈ s, IsReal (f i))
    (hp : ∀ i ∈ s, 0 < f i) (hne : s.Nonempty) : 0 < ∑ i ∈ s, f i := by
  have e : ∑ i ∈ s, f i = ((∑ i ∈ s, (f i).toReal : ℝ) : EReal) := by
    rw [coe_finset_sum]
    exact Finset.sum_congr rfl fun i hi => (h i hi).coe_toReal.symm
  rw [e]
  exact EReal.coe_pos.2 (Finset.sum_pos (fun i hi => EReal.toReal_pos (hp i hi) (h i hi).ne_top) hne)

/-! ## The same operations as a program spells them at the ideal values -/

section Fields
variable {φ : FTy} {x y : Ideal φ}

theorem isReal_addf (hx : IsReal x) (hy : IsReal y) : IsReal (FloatOps.addf x y) := hx.add hy
theorem isReal_subf (hx : IsReal x) (hy : IsReal y) : IsReal (FloatOps.subf x y) := hx.sub hy
theorem isReal_mulf (hx : IsReal x) (hy : IsReal y) : IsReal (FloatOps.mulf x y) := hx.mul hy
theorem isReal_negf (hx : IsReal x) : IsReal (FloatOps.negf x) := hx.neg
theorem isReal_hostNegf (hx : IsReal x) : IsReal (FloatOps.hostNegf x) := hx.neg
theorem isReal_maximumf (hx : IsReal x) (hy : IsReal y) : IsReal (FloatOps.maximumf x y) := hx.max hy
theorem isReal_minimumf (hx : IsReal x) (hy : IsReal y) : IsReal (FloatOps.minimumf x y) := hx.min hy
theorem isReal_select {x y : EReal} (c : BitVec 1) (hx : IsReal x) (hy : IsReal y) : IsReal (Scalar.select c x y) := by
  unfold Scalar.select; split_ifs <;> assumption
theorem isReal_sitofp {w : Nat} (b : BitVec w) : IsReal (FloatOps.sitofp (F := Ideal) φ b) := ⟨_, rfl⟩
theorem isReal_uitofp {w : Nat} (b : BitVec w) : IsReal (FloatOps.uitofp (F := Ideal) φ b) := ⟨_, rfl⟩
theorem isReal_extf (ψ : FTy) (h : φ.bits < ψ.bits) (hx : IsReal x) : IsReal (FloatOps.extf ψ h x) := hx
theorem isReal_truncf (ψ : FTy) (h : ψ.bits < φ.bits) (hx : IsReal x) : IsReal (FloatOps.truncf ψ h x) := hx

end Fields

/-! ## Division -/

/-- The quotient of two reals, the divisor not zero, is the real quotient. -/
theorem div_coe_coe (a : ℝ) {b : ℝ} (hb : b ≠ 0) : Ideal.div (a : EReal) (b : EReal) = ((a / b : ℝ) : EReal) := by
  rw [Ideal.div_coe hb, ← EReal.coe_mul, mul_one_div]
theorem isReal_div {x y : EReal} (hx : IsReal x) (hy : IsReal y) (h0 : y ≠ 0) : IsReal (Ideal.div x y) := by
  obtain ⟨a, rfl⟩ := hx; obtain ⟨b, rfl⟩ := hy
  exact ⟨a / b, div_coe_coe a (EReal.coe_ne_zero.1 h0)⟩
theorem isReal_divf {φ : FTy} {x y : Ideal φ} (hx : IsReal x) (hy : IsReal y) (h0 : y ≠ 0) :
    IsReal (FloatOps.divf x y) := isReal_div hx hy h0
theorem isReal_hostDivf {φ : FTy} {x y : Ideal φ} (hx : IsReal x) (hy : IsReal y) (h0 : y ≠ 0) :
    IsReal (FloatOps.hostDivf x y) := isReal_div hx hy h0

/-- The value of the min–max normalisation in the reals: for `mn < mx` the quotient `(x - mn) / (mx - mn)`. -/
theorem div_sub_sub_coe (x mn mx : ℝ) (hlt : mn < mx) :
    Ideal.div ((x : EReal) - mn) ((mx : EReal) - mn) = (((x - mn) / (mx - mn) : ℝ) : EReal) := by
  rw [← EReal.coe_sub, ← EReal.coe_sub]
  exact div_coe_coe _ (sub_ne_zero.2 hlt.ne')
/-- The min–max normalisation: for reals with `mn < mx` the quotient `(x - mn) / (mx - mn)` is real. -/
theorem isReal_div_sub_sub {x mn mx : EReal} (hx : IsReal x) (hmn : IsReal mn) (hmx : IsReal mx) (hlt : mn < mx) :
    IsReal (Ideal.div (x - mn) (mx - mn)) := by
  obtain ⟨a, rfl⟩ := hx; obtain ⟨b, rfl⟩ := hmn; obtain ⟨c, rfl⟩ := hmx
  exact ⟨_, div_sub_sub_coe a b c (EReal.coe_lt_coe_iff.1 hlt)⟩

/-! ## Comparisons -/

theorem cmp_ogt_eq_one_iff {a b : EReal} : Ideal.cmp .ogt a b = 1#1 ↔ b < a := by
  show BitVec.ofBool (decide (b < a)) = 1#1 ↔ b < a
  by_cases h : b < a <;> simp [h]
theorem lt_of_cmp_ogt {a b : EReal} (h : Ideal.cmp .ogt a b = 1#1) : b < a := cmp_ogt_eq_one_iff.1 h
theorem lt_of_cmpf_ogt {φ : FTy} {a b : Ideal φ} (h : FloatOps.cmpf .ogt a b = 1#1) : b < a := cmp_ogt_eq_one_iff.1 h
theorem le_of_cmpf_ogt_ne {φ : FTy} {a b : Ideal φ} (h : FloatOps.cmpf .ogt a b ≠ 1#1) : a ≤ b :=
  not_lt.1 fun hlt => h (cmp_ogt_eq_one_iff.2 hlt)

/-! ## Bit patterns -/

theorem ofBits_one_f32 : Ideal.ofBits .f32 0x3F800000#32 = ((1 : ℝ) : EReal) := by
  simp [Ideal.ofBits, Ideal.ieee, -EReal.coe_mul, -EReal.coe_one]; norm_num
theorem ofBits_neg_half_f32 : Ideal.ofBits .f32 0xBF000000#32 = ((-1 / 2 : ℝ) : EReal) := by
  simp [Ideal.ofBits, Ideal.ieee, -EReal.coe_mul, -EReal.coe_neg]; norm_num
theorem ofBits_zero_f32 : Ideal.ofBits .f32 0x00000000#32 = 0 := Ideal.ofBits_zero_f32
theorem ofBits_neg_inf_f32 : Ideal.ofBits .f32 0xFF800000#32 = ⊥ := by simp [Ideal.ofBits, Ideal.ieee]
theorem ofBits_pos_inf_f32 : Ideal.ofBits .f32 0x7F800000#32 = ⊤ := by simp [Ideal.ofBits, Ideal.ieee]
/-- The pattern `0x3C23D70A` (the f32 nearest one hundredth) is a positive real. -/
theorem ofBits_hundredth_f32_pos : ∃ r : ℝ, 0 < r ∧ Ideal.ofBits .f32 0x3C23D70A#32 = (r : EReal) := by
  have h : Ideal.ofBits .f32 0x3C23D70A#32 = (((10737418 : ℝ) * (2 : ℝ) ^ (-30 : ℤ) : ℝ) : EReal) := by
    simp [Ideal.ofBits, Ideal.ieee, -EReal.coe_mul] <;> norm_num
  exact ⟨_, by positivity, h⟩
theorem isReal_ofBits_one_f32 : IsReal (Ideal.ofBits .f32 0x3F800000#32) := ⟨_, ofBits_one_f32⟩
theorem isReal_ofBits_neg_half_f32 : IsReal (Ideal.ofBits .f32 0xBF000000#32) := ⟨_, ofBits_neg_half_f32⟩
theorem isReal_ofBits_zero_f32 : IsReal (Ideal.ofBits .f32 0x00000000#32) := ⟨0, ofBits_zero_f32⟩
theorem isReal_ofBits_hundredth_f32 : IsReal (Ideal.ofBits .f32 0x3C23D70A#32) :=
  let ⟨r, _, h⟩ := ofBits_hundredth_f32_pos; ⟨r, h⟩

/-! ## The power `v ^ (-1/2)` at `v ≥ 1` -/

/-- For a real `v ≥ 1` the power `v ^ (-1/2)` is a positive real. -/
theorem pow_neg_half_coe {v : ℝ} (hv : 1 ≤ v) :
    ∃ r : ℝ, 0 < r ∧ Ideal.pow (v : EReal) ((-1 / 2 : ℝ) : EReal) = (r : EReal) :=
  ⟨Real.rpow v (-1 / 2), Real.rpow_pos_of_pos (lt_of_lt_of_le one_pos hv) _, Ideal.pow_coe_coe v (-1 / 2)⟩
/-- The same for an extended real known to be real and at least one, the exponent the pattern of `-0.5`. -/
theorem pow_neg_half_of_one_le {v : EReal} (hv : IsReal v) (h1 : 1 ≤ v) :
    ∃ r : ℝ, 0 < r ∧ Ideal.pow v (Ideal.ofBits .f32 0xBF000000#32) = (r : EReal) := by
  obtain ⟨r, rfl⟩ := hv
  rw [ofBits_neg_half_f32]
  exact pow_neg_half_coe (EReal.coe_le_coe_iff.1 (by rwa [EReal.coe_one]))
/-- As a program spells it: the host power of `max deg 1` to the pattern of `-0.5`, `deg` real. -/
theorem hostPowf_max_one_neg_half {deg : Ideal .f32} (hd : IsReal deg) :
    ∃ r : ℝ, 0 < r ∧ FloatOps.hostPowf (FloatOps.maximumf deg (Ideal.ofBits .f32 0x3F800000#32))
      (Ideal.ofBits .f32 0xBF000000#32) = (r : EReal) := by
  show ∃ r : ℝ, 0 < r ∧ Ideal.pow (max deg (Ideal.ofBits .f32 0x3F800000#32)) (Ideal.ofBits .f32 0xBF000000#32) = (r : EReal)
  have h1 : (1 : EReal) ≤ Ideal.ofBits .f32 0x3F800000#32 := by rw [ofBits_one_f32, EReal.coe_one]
  exact pow_neg_half_of_one_le (hd.max isReal_ofBits_one_f32) (le_max_of_le_right h1)

/-! ## The exponential -/

theorem exp_pos_of_isReal {x : EReal} (hx : IsReal x) : ∃ r : ℝ, 0 < r ∧ Ideal.exp x = (r : EReal) := by
  obtain ⟨a, rfl⟩ := hx; exact ⟨Real.exp a, Real.exp_pos a, Ideal.exp_coe a⟩
theorem isReal_exp {x : EReal} (hx : IsReal x) : IsReal (Ideal.exp x) :=
  let ⟨r, _, h⟩ := exp_pos_of_isReal hx; ⟨r, h⟩
theorem exp_pos {x : EReal} (hx : IsReal x) : 0 < Ideal.exp x := by
  obtain ⟨r, hr, h⟩ := exp_pos_of_isReal hx; rw [h]; exact EReal.coe_pos.2 hr
theorem isReal_hostExp {φ : FTy} {x : Ideal φ} (hx : IsReal x) : IsReal (FloatOps.hostUnary .exp x) := isReal_exp hx
theorem hostExp_pos {φ : FTy} {x : Ideal φ} (hx : IsReal x) : 0 < FloatOps.hostUnary .exp x := exp_pos hx
theorem isReal_expf {φ : FTy} {x : Ideal φ} (hx : IsReal x) : IsReal (FloatOps.exp x) := isReal_exp hx
theorem expf_pos {φ : FTy} {x : Ideal φ} (hx : IsReal x) : 0 < FloatOps.exp x := exp_pos hx

/-! ## Column reductions by maximum and minimum -/

section Columns
variable {R C : Nat}

/-- Over axis 0 of an `R × C` array the indices that drop to column `j` are those whose column is `j`. -/
theorem drop_eq_iff_col (h : (⟨2, ![R, C]⟩ : Shape).ReducesTo [0] (⟨1, ![C]⟩ : Shape))
    (i : (⟨2, ![R, C]⟩ : Shape).Idx) (j : (⟨1, ![C]⟩ : Shape).Idx) : h.drop i = j ↔ i 1 = j 0 := by
  have hv : (h.drop i 0 : Nat) = i 1 := Shape.ReducesTo.drop_apply_val h i 0
  constructor
  · intro e; apply Fin.ext; rw [← hv, e]
  · intro e; funext b
    obtain rfl : b = 0 := Subsingleton.elim _ _
    exact Fin.ext (hv.trans (congrArg Fin.val e))

/-- Entry `(r, j)` drops to column `j`. -/
theorem ix2_mem_fiber (h : (⟨2, ![R, C]⟩ : Shape).ReducesTo [0] (⟨1, ![C]⟩ : Shape)) (r : Fin R)
    (j : (⟨1, ![C]⟩ : Shape).Idx) :
    (ix2 r (j 0 : Fin C) : (⟨2, ![R, C]⟩ : Shape).Idx) ∈ Finset.univ.filter fun i : (⟨2, ![R, C]⟩ : Shape).Idx => h.drop i = j :=
  by rw [Finset.mem_filter]; exact ⟨Finset.mem_univ _, (drop_eq_iff_col h _ j).2 rfl⟩

/-- The column maximum from `-∞` of a real-valued array with at least one row is real and is at least every entry of the
    column. -/
theorem hostReduce_max_col (hR : 0 < R) (x : FVec Ideal ⟨2, ![R, C]⟩ .f32) (hx : ∀ i, IsReal (x i)) {u : Shape}
    (init : u.Idx → Ideal .f32) (hu : 0 < u.numel) (hinit : init (Shape.Idx.first hu) = ⊥)
    (h : (⟨2, ![R, C]⟩ : Shape).ReducesTo [0] (⟨1, ![C]⟩ : Shape)) (j : (⟨1, ![C]⟩ : Shape).Idx) :
    IsReal (Host.reduce (FloatOps.maximumf (F := Ideal) (φ := .f32)) x init h hu j)
      ∧ ∀ r : Fin R, x (ix2 r (j 0 : Fin C)) ≤ Host.reduce (FloatOps.maximumf (F := Ideal) (φ := .f32)) x init h hu j := by
  have key : Host.reduce (FloatOps.maximumf (F := Ideal) (φ := .f32)) x init h hu j
      = (Finset.univ.filter fun i : (⟨2, ![R, C]⟩ : Shape).Idx => h.drop i = j).fold max ⊥ x := by
    rw [Host.reduce_eq_fold, hinit]; rfl
  rw [key]
  have h0 := ix2_mem_fiber h ⟨0, hR⟩ j
  refine ⟨isReal_of_ne ?_ ?_, fun r => (Finset.le_fold_max _).2 (Or.inr ⟨_, ix2_mem_fiber h r j, le_rfl⟩)⟩
  · exact ((Finset.lt_fold_max _).2 (Or.inr ⟨_, h0, bot_lt_iff_ne_bot.2 (hx _).ne_bot⟩)).ne'
  · exact ((Finset.fold_max_lt _).2 ⟨bot_lt_top, fun i _ => lt_top_iff_ne_top.2 (hx i).ne_top⟩).ne

/-- The column minimum from `+∞` of a real-valued array with at least one row is real and is at most every entry of the
    column. -/
theorem hostReduce_min_col (hR : 0 < R) (x : FVec Ideal ⟨2, ![R, C]⟩ .f32) (hx : ∀ i, IsReal (x i)) {u : Shape}
    (init : u.Idx → Ideal .f32) (hu : 0 < u.numel) (hinit : init (Shape.Idx.first hu) = ⊤)
    (h : (⟨2, ![R, C]⟩ : Shape).ReducesTo [0] (⟨1, ![C]⟩ : Shape)) (j : (⟨1, ![C]⟩ : Shape).Idx) :
    IsReal (Host.reduce (FloatOps.minimumf (F := Ideal) (φ := .f32)) x init h hu j)
      ∧ ∀ r : Fin R, Host.reduce (FloatOps.minimumf (F := Ideal) (φ := .f32)) x init h hu j ≤ x (ix2 r (j 0 : Fin C)) := by
  have key : Host.reduce (FloatOps.minimumf (F := Ideal) (φ := .f32)) x init h hu j
      = (Finset.univ.filter fun i : (⟨2, ![R, C]⟩ : Shape).Idx => h.drop i = j).fold min ⊤ x := by
    rw [Host.reduce_eq_fold, hinit]; rfl
  rw [key]
  have h0 := ix2_mem_fiber h ⟨0, hR⟩ j
  refine ⟨isReal_of_ne ?_ ?_, fun r => (Finset.fold_min_le _).2 (Or.inr ⟨_, ix2_mem_fiber h r j, le_rfl⟩)⟩
  · exact ((Finset.lt_fold_min _).2 ⟨bot_lt_top, fun i _ => bot_lt_iff_ne_bot.2 (hx i).ne_bot⟩).ne'
  · exact ((Finset.fold_min_lt _).2 (Or.inr ⟨_, h0, lt_top_iff_ne_top.2 (hx _).ne_top⟩)).ne

/-- The same with the initial value the constant a program prints, the pattern of `-∞`. -/
theorem hostReduce_max_col_const (hR : 0 < R) (x : FVec Ideal ⟨2, ![R, C]⟩ .f32) (hx : ∀ i, IsReal (x i)) {u : Shape}
    (hu : 0 < u.numel) (h : (⟨2, ![R, C]⟩ : Shape).ReducesTo [0] (⟨1, ![C]⟩ : Shape)) (j : (⟨1, ![C]⟩ : Shape).Idx) :
    IsReal (Host.reduce (FloatOps.maximumf (F := Ideal) (φ := .f32)) x (constant (F := Ideal) u .f32 0xFF800000#32) h hu j)
      ∧ ∀ r : Fin R, x (ix2 r (j 0 : Fin C)) ≤ Host.reduce (FloatOps.maximumf (F := Ideal) (φ := .f32)) x (constant (F := Ideal) u .f32 0xFF800000#32) h hu j :=
  hostReduce_max_col hR x hx _ hu ofBits_neg_inf_f32 h j

/-- The same with the initial value the constant a program prints, the pattern of `+∞`. -/
theorem hostReduce_min_col_const (hR : 0 < R) (x : FVec Ideal ⟨2, ![R, C]⟩ .f32) (hx : ∀ i, IsReal (x i)) {u : Shape}
    (hu : 0 < u.numel) (h : (⟨2, ![R, C]⟩ : Shape).ReducesTo [0] (⟨1, ![C]⟩ : Shape)) (j : (⟨1, ![C]⟩ : Shape).Idx) :
    IsReal (Host.reduce (FloatOps.minimumf (F := Ideal) (φ := .f32)) x (constant (F := Ideal) u .f32 0x7F800000#32) h hu j)
      ∧ ∀ r : Fin R, Host.reduce (FloatOps.minimumf (F := Ideal) (φ := .f32)) x (constant (F := Ideal) u .f32 0x7F800000#32) h hu j ≤ x (ix2 r (j 0 : Fin C)) :=
  hostReduce_min_col hR x hx _ hu ofBits_pos_inf_f32 h j

/-- The column minimum is at most the column maximum. -/
theorem hostReduce_min_le_max_col (hR : 0 < R) (x : FVec Ideal ⟨2, ![R, C]⟩ .f32) (hx : ∀ i, IsReal (x i)) {u u' : Shape}
    (init : u.Idx → Ideal .f32) (hu : 0 < u.numel) (hinit : init (Shape.Idx.first hu) = ⊤)
    (init' : u'.Idx → Ideal .f32) (hu' : 0 < u'.numel) (hinit' : init' (Shape.Idx.first hu') = ⊥)
    (h h' : (⟨2, ![R, C]⟩ : Shape).ReducesTo [0] (⟨1, ![C]⟩ : Shape)) (j : (⟨1, ![C]⟩ : Shape).Idx) :
    Host.reduce (FloatOps.minimumf (F := Ideal) (φ := .f32)) x init h hu j
      ≤ Host.reduce (FloatOps.maximumf (F := Ideal) (φ := .f32)) x init' h' hu' j :=
  ((hostReduce_min_col hR x hx init hu hinit h j).2 ⟨0, hR⟩).trans
    ((hostReduce_max_col hR x hx init' hu' hinit' h' j).2 ⟨0, hR⟩)

/-- The column sum from a real initial value of a real-valued array is real; from zero, of positive entries over at least
    one row, it is positive. -/
theorem hostReduceAdd_col_pos (hR : 0 < R) (x : (⟨2, ![R, C]⟩ : Shape).Idx → EReal) (hx : ∀ i, IsReal (x i))
    (hp : ∀ i, 0 < x i) (h : (⟨2, ![R, C]⟩ : Shape).ReducesTo [0] (⟨1, ![C]⟩ : Shape)) (j : (⟨1, ![C]⟩ : Shape).Idx) :
    0 < Ideal.hostReduceAdd h x 0 j := by
  show 0 < (0 : EReal) + ∑ i ∈ Finset.univ.filter (fun i => h.drop i = j), x i
  rw [zero_add]
  exact sum_pos_of_isReal _ x (fun i _ => hx i) (fun i _ => hp i) ⟨_, ix2_mem_fiber h ⟨0, hR⟩ j⟩

/-- The same for the host sum as a program spells it, its initial value zero. -/
theorem reduceAdd_col_pos (hR : 0 < R) {φ : FTy} (x : FVec Ideal ⟨2, ![R, C]⟩ φ) (hx : ∀ i, IsReal (x i))
    (hp : ∀ i, 0 < x i) {u : Shape} (init : u.Idx → Ideal φ) (hu : 0 < u.numel) (hinit : init (Shape.Idx.first hu) = 0)
    (h : (⟨2, ![R, C]⟩ : Shape).ReducesTo [0] (⟨1, ![C]⟩ : Shape)) (j : (⟨1, ![C]⟩ : Shape).Idx) :
    0 < Host.reduceAdd x init h hu j := by
  show 0 < Ideal.hostReduceAdd h x (init (Shape.Idx.first hu)) j
  rw [hinit]
  exact hostReduceAdd_col_pos hR x hx hp h j

end Columns

/-! ## Contractions, scatters and sums -/

section Contract
variable {sl sr so : Shape}

theorem isReal_matmul (d : DotDims sl sr so) (lhs : sl.Idx → EReal) (rhs : sr.Idx → EReal) (acc : so.Idx → EReal)
    (hl : ∀ i, IsReal (lhs i)) (hr : ∀ i, IsReal (rhs i)) (ha : ∀ j, IsReal (acc j)) (j : so.Idx) :
    IsReal (Ideal.matmul d lhs rhs acc j) :=
  (ha j).add (isReal_sum_univ _ fun k => (hl _).mul (hr _))

theorem isReal_matmulf {φ₁ φ₂ : FTy} (d : DotDims sl sr so) (prec : Option ContractPrecision) (lhs : FVec Ideal sl φ₁)
    (rhs : FVec Ideal sr φ₂) (acc : FVec Ideal so .f32) (hl : ∀ i, IsReal (lhs i)) (hr : ∀ i, IsReal (rhs i))
    (ha : ∀ j, IsReal (acc j)) (j : so.Idx) : IsReal (FloatOps.matmul d prec lhs rhs acc j) :=
  isReal_matmul d lhs rhs acc hl hr ha j

theorem isReal_dotGeneral {φ₁ φ₂ : FTy} (d : DotDims sl sr so) (prec : Option ContractPrecision) (sched : HostSchedule)
    (lhs : FVec Ideal sl φ₁) (rhs : FVec Ideal sr φ₂) (hl : ∀ i, IsReal (lhs i)) (hr : ∀ i, IsReal (rhs i)) (j : so.Idx) :
    IsReal (FloatOps.dotGeneral d prec sched lhs rhs j) :=
  isReal_matmul d lhs rhs (fun _ => 0) hl hr (fun _ => isReal_zero) j

theorem isReal_hostDotGeneral {φ₁ φ₂ : FTy} (d : DotDims sl sr so) (prec : Option ContractPrecision)
    (lhs : FVec Ideal sl φ₁) (rhs : FVec Ideal sr φ₂) (hl : ∀ i, IsReal (lhs i)) (hr : ∀ i, IsReal (rhs i)) (j : so.Idx) :
    IsReal (Host.dotGeneral d prec lhs rhs j) :=
  isReal_dotGeneral d prec .single lhs rhs hl hr j

end Contract

/-- A gather reads the operand: real when the operand is. -/
theorem isReal_gather {s si t : Shape} {w : Nat} (d : GatherDims s si t) (x : s.Idx → EReal) (idx : IVec si w)
    (hx : ∀ i, IsReal (x i)) (j : t.Idx) : IsReal (Host.gather d x idx j) :=
  hx _

theorem isReal_hostScatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) :=
  (hx i).add (isReal_sum _ _ fun j _ => hu j)

theorem isReal_scatterAdd {s si su : Shape} {φ : FTy} (d : ScatterDims s si su) {w : Nat} (x : FVec Ideal s φ)
    (idx : IVec si w) (upd : FVec Ideal su φ) (hx : ∀ i, IsReal (x i)) (hu : ∀ j, IsReal (upd j)) (i : s.Idx) :
    IsReal (Host.scatterAdd d x idx upd i) :=
  isReal_hostScatterAdd d x idx upd hx hu i

theorem isReal_hostReduceAdd {s t : Shape} {axes : List (Fin s.rank)} (h : s.ReducesTo axes t) (x : s.Idx → EReal)
    (init : EReal) (hx : ∀ i, IsReal (x i)) (hi : IsReal init) (j : t.Idx) :
    IsReal (Ideal.hostReduceAdd h x init j) :=
  hi.add (isReal_sum _ _ fun i _ => hx i)

theorem isReal_reduceAdd {s t u : Shape} {φ : FTy} {axes : List (Fin s.rank)} (x : FVec Ideal s φ)
    (init : u.Idx → Ideal φ) (h : s.ReducesTo axes t) (hu : 0 < u.numel) (hx : ∀ i, IsReal (x i))
    (hi : IsReal (init (Shape.Idx.first hu))) (j : t.Idx) : IsReal (Host.reduceAdd x init h hu j) :=
  isReal_hostReduceAdd h x _ hx hi j

end RealClosure
-- ==== Proof.Spec.lean ====
/-
  The attention weights of a graph layer as ONE function of its three argument arrays, index by index, on the
  extended reals. For a batch `b`, a node feature array `x[b] : 128 × 2048` and two weight matrices `q, k : 128 × 64`:
  the query and key features are the leaky rectifier of the projections `Σ_f x[b,f,n] · w[f,a]`; the score of the
  pair (n, m) is `Σ_a Q[b,n,a] · K[b,m,a]`; and the weight of (n, m) is the softmax of the scores DOWN column `m`
  (over the query index `n`): `exp (s[n,m] - max_n' s[n',m]) / Σ_n' exp (s[n',m] - max_n'' s[n'',m])`.
  Also here: when the arguments are real numbers every quantity above is real, the column sum is positive, and so
  the product with the reciprocal of the column sum IS the quotient by it — the one law the two programs differ by.
-/
import Idealize.ShloMosaic.PureOps.Ideal
import Idealize.ShloMosaic.PureOps.Ideal.Laws
import Idealize.ShloMosaic.Lib.ValueIdx
import proofs.«412591_j7224134992186_3_alg».proof.Proof.LibRealClosure

open scoped BigOperators

noncomputable section

namespace Cert.ColSoftmax

open Idealize.ShloMosaic Idealize.ShloMosaic.ValueIdx RealClosure

/-- The node features, the weight matrices, the attention weights. -/
abbrev SX : Shape := ⟨3, ![8, 128, 2048]⟩
abbrev SW : Shape := ⟨2, ![128, 64]⟩
abbrev SO : Shape := ⟨3, ![8, 2048, 2048]⟩

/-- The leaky rectifier as both programs spell it: `v` where `0 ≤ v`, else the slope (the f32 nearest one hundredth)
    times `v`. -/
def leaky (v : EReal) : EReal :=
  Scalar.select (Ideal.cmp .oge v (Ideal.ofBits .f32 0x00000000#32)) v (Ideal.ofBits .f32 0x3C23D70A#32 * v)

/-- Node `n` of batch `b` projected on column `a` of a weight matrix: `Σ_f x[b,f,n] · w[f,a]`. -/
def proj (x : SX.Idx → EReal) (w : SW.Idx → EReal) (b : Fin 8) (n : Fin 2048) (a : Fin 64) : EReal :=
  ∑ f : Fin 128, x (ix3 b f n) * w (ix2 f a)

/-- A feature: the rectified projection. -/
def feat (x : SX.Idx → EReal) (w : SW.Idx → EReal) (b : Fin 8) (n : Fin 2048) (a : Fin 64) : EReal :=
  leaky (proj x w b n a)

section
variable (x : SX.Idx → EReal) (q k : SW.Idx → EReal)

/-- The score of query node `n` against key node `m`: `Σ_a Q[b,n,a] · K[b,m,a]`. -/
def score (b : Fin 8) (n m : Fin 2048) : EReal := ∑ a : Fin 64, feat x q b n a * feat x k b m a

/-- The largest score of column `m`, over the query nodes, from `-∞`. -/
def colMax (b : Fin 8) (m : Fin 2048) : EReal :=
  Finset.univ.fold max (Ideal.ofBits .f32 0xFF800000#32) fun n : Fin 2048 => score x q k b n m

/-- The exponential of a score less its column's maximum. -/
def expo (b : Fin 8) (n m : Fin 2048) : EReal := Ideal.exp (score x q k b n m - colMax x q k b m)

/-- The sum of column `m`'s exponentials. -/
def colSum (b : Fin 8) (m : Fin 2048) : EReal := ∑ n : Fin 2048, expo x q k b n m

/-- THE RESULT: entry (b, n, m) is the exponential over its column's sum. -/
def weights : SO.Idx → EReal := fun i => Ideal.div (expo x q k (i 0) (i 1) (i 2)) (colSum x q k (i 0) (i 2))

theorem weights_ix3 (b : Fin 8) (n m : Fin 2048) :
    weights x q k (ix3 b n m) = Ideal.div (expo x q k b n m) (colSum x q k b m) := rfl

/-! ## Real arguments: every stage is real, the column sums positive -/

theorem isReal_leaky {v : EReal} (hv : IsReal v) : IsReal (leaky v) :=
  isReal_select _ hv (isReal_ofBits_hundredth_f32.mul hv)

section Real
variable (hx : ∀ i, IsReal (x i)) (hq : ∀ i, IsReal (q i)) (hk : ∀ i, IsReal (k i))
include hx

theorem isReal_proj (w : SW.Idx → EReal) (hw : ∀ i, IsReal (w i)) (b : Fin 8) (n : Fin 2048) (a : Fin 64) :
    IsReal (proj x w b n a) :=
  isReal_sum_univ _ fun _ => (hx _).mul (hw _)

theorem isReal_feat (w : SW.Idx → EReal) (hw : ∀ i, IsReal (w i)) (b : Fin 8) (n : Fin 2048) (a : Fin 64) :
    IsReal (feat x w b n a) :=
  isReal_leaky (isReal_proj x hx w hw b n a)

include hq hk

theorem isReal_score (b : Fin 8) (n m : Fin 2048) : IsReal (score x q k b n m) :=
  isReal_sum_univ _ fun a => (isReal_feat x hx q hq b n a).mul (isReal_feat x hx k hk b m a)

/-- A column's maximum over its 2048 real scores is one of them, so real. -/
theorem isReal_colMax (b : Fin 8) (m : Fin 2048) : IsReal (colMax x q k b m) := by
  unfold colMax
  rw [ofBits_neg_inf_f32]
  refine isReal_of_ne ?_ ?_
  · exact ((Finset.lt_fold_max _).2 (Or.inr ⟨(0 : Fin 2048), Finset.mem_univ _,
      bot_lt_iff_ne_bot.2 (isReal_score x q k hx hq hk b 0 m).ne_bot⟩)).ne'
  · exact ((Finset.fold_max_lt _).2 ⟨bot_lt_top, fun n _ =>
      lt_top_iff_ne_top.2 (isReal_score x q k hx hq hk b n m).ne_top⟩).ne

theorem isReal_expo (b : Fin 8) (n m : Fin 2048) : IsReal (expo x q k b n m) :=
  isReal_exp ((isReal_score x q k hx hq hk b n m).sub (isReal_colMax x q k hx hq hk b m))

theorem expo_pos (b : Fin 8) (n m : Fin 2048) : 0 < expo x q k b n m :=
  exp_pos ((isReal_score x q k hx hq hk b n m).sub (isReal_colMax x q k hx hq hk b m))

theorem isReal_colSum (b : Fin 8) (m : Fin 2048) : IsReal (colSum x q k b m) :=
  isReal_sum_univ _ fun n => isReal_expo x q k hx hq hk b n m

/-- A sum of 2048 positive reals. -/
theorem colSum_pos (b : Fin 8) (m : Fin 2048) : 0 < colSum x q k b m :=
  sum_pos_of_isReal Finset.univ _ (fun n _ => isReal_expo x q k hx hq hk b n m)
    (fun n _ => expo_pos x q k hx hq hk b n m) ⟨(0 : Fin 2048), Finset.mem_univ _⟩

end Real
end

/-! ## The law -/

/-- For a real `p` and a positive real `s` the product of `p` with the reciprocal `1 / s` (the numerator the f32
    pattern of one) is the quotient `p / s`. At `s = 0` or an infinite `s` the two differ, which is why the column
    sum's positivity is needed. -/
theorem mul_one_div_eq_div {p s : EReal} (hp : IsReal p) (hs : IsReal s) (hpos : 0 < s) :
    p * Ideal.div (Ideal.ofBits .f32 0x3F800000#32) s = Ideal.div p s := by
  obtain ⟨a, rfl⟩ := hp
  obtain ⟨b, rfl⟩ := hs
  have hb : b ≠ 0 := (EReal.coe_pos.1 hpos).ne'
  rw [ofBits_one_f32, div_coe_coe 1 hb, div_coe_coe a hb, ← EReal.coe_mul, mul_one_div]

end Cert.ColSoftmax

end
-- ==== Proof.Finite.lean ====
/-
  The precondition says every entry of the three argument arrays is a real number. It is the conjunction of three
  "all entries satisfy |x| < +∞"; at the extended reals |x| is `max x (-x)`, which is below `+∞` exactly when `x` is
  neither infinity.
-/
import proofs.«412591_j7224134992186_3_alg».proof.Pre_finite_inputs
import proofs.«412591_j7224134992186_3_alg».proof.Proof.Gen.Pre_finite_inputs
import proofs.«412591_j7224134992186_3_alg».proof.Proof.LibRealClosure
import Idealize.ShloMosaic.Lib.ReduceAll
import Idealize.ShloMosaic.Lib.Affine
import Idealize.ShloMosaic.Lib.ValueIdx

noncomputable section

namespace Cert.Pre_finite_inputs.RealInputs

open Cert.Pre_finite_inputs Idealize.ShloMosaic Idealize.ShloMosaic.ValueIdx RealClosure

instance : Subsingleton S_.Idx := ⟨fun _ _ => funext fun d => d.elim0⟩

/-- `max x (-x) < +∞` holds of no infinity. -/
theorem isReal_of_abs_lt_inf {x : EReal}
    (h : Ideal.cmp .olt (max x (-x)) (Ideal.ofBits .f32 0x7F800000#32) = 1#1) : IsReal x := by
  rw [ofBits_pos_inf_f32] at h
  have hlt : max x (-x) < ⊤ := by
    by_contra hn
    have e : Ideal.cmp .olt (max x (-x)) ⊤ = 0#1 := by
      show BitVec.ofBool (decide (max x (-x) < ⊤)) = 0#1
      rw [decide_eq_false hn]; rfl
    rw [e] at h
    exact absurd h (by decide)
  refine isReal_of_ne ?_ ?_
  · rintro rfl
    exact absurd hlt (by simp)
  · rintro rfl
    exact absurd hlt (by simp)

/-- One conjunct: the reduction by `and` over every axis of the comparisons is one, so each comparison is. -/
theorem isReal_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant (F := Ideal) S_ .f32 0x7F800000#32)))
      (constantI S_ 1 1#1) hr hu ix0 = 1#1) (i : s.Idx) : IsReal (a i) :=
  isReal_of_abs_lt_inf (Host.reduce_andi_all _ _ hr hu ix0 e i)

/-- THE PRECONDITION READ: all three arrays hold real numbers. -/
theorem real_of_pre [Facts] (a0 : FVec Ideal S8x128x2048 .f32) (a1 a2 : FVec Ideal S128x64 .f32)
    (h : fn (F := Ideal) a0 a1 a2 = fun _ => 1#1) :
    (∀ i, IsReal (a0 i)) ∧ (∀ i, IsReal (a1 i)) ∧ (∀ i, IsReal (a2 i)) := by
  have h0 := congrFun h ix0
  dsimp only [fn] at h0
  obtain ⟨h01, h2⟩ := IntOp.andi_eq_one.1 h0
  obtain ⟨h0', h1⟩ := IntOp.andi_eq_one.1 h01
  exact ⟨isReal_of_all a0 _ _ _ h0', isReal_of_all a1 _ _ _ h1, isReal_of_all a2 _ _ _ h2⟩

end Cert.Pre_finite_inputs.RealInputs

end
-- ==== Proof.RefValue.lean ====
/-
  The reference computes the attention weights: its result, read one operation at a time at an index (b, n, m), is the
  specification's `weights` there. The transpose swaps the last two coordinates of the node features, so each contraction
  against a weight matrix is the projection `Σ_f x[b,f,n] · w[f,a]`; the batched contraction of the two rectified
  feature arrays over their last axis is the score; the reduction by maximum over axis 1 from `-∞` is the fold of
  `max` down the column, and taking the maximum of that with `-∞` once more changes nothing; the reduction by sum from
  zero is the column sum. Nothing here needs the arguments to be finite.
-/
import proofs.«412591_j7224134992186_3_alg».proof.Proof.Gen.ReferenceIdeal.Read
import proofs.«412591_j7224134992186_3_alg».proof.Proof.Spec
import Idealize.ShloMosaic.PureOps.Reduce
import Idealize.ShloMosaic.PureOps.Ideal.Laws
import Idealize.ShloMosaic.Lib.ValueIdx

open scoped BigOperators

noncomputable section

namespace Cert.ReferenceIdeal.RefValue

open Cert.ReferenceIdeal Cert.ReferenceIdeal.Gen Cert.ReferenceIdeal.Read
open Idealize.ShloMosaic Idealize.ShloMosaic.ValueIdx Cert.ColSoftmax RealClosure

variable (x0 : SX.Idx → EReal) (x1 x2 : SW.Idx → EReal)

/-! ## The two projections and their rectification -/

/-- The transposed features at (b, n, f) are the features at (b, f, n): the left factor of contraction term `f`. -/
theorem lhs_v1 (b : Fin 8) (n : Fin 2048) (a : Fin 64) (f : Fin 128) :
    idx_main_v0 (lidx_main_v1 (ix3 b n a) f) = ix3 b f n :=
  funext fun d => by match d with | ⟨0, _⟩ => rfl | ⟨1, _⟩ => rfl | ⟨2, _⟩ => rfl

theorem rhs_v1 (b : Fin 8) (n : Fin 2048) (a : Fin 64) (f : Fin 128) : ridx_main_v1 (ix3 b n a) f = ix2 f a :=
  funext fun d => by match d with | ⟨0, _⟩ => rfl | ⟨1, _⟩ => rfl

theorem lhs_v7 (b : Fin 8) (n : Fin 2048) (a : Fin 64) (f : Fin 128) :
    idx_main_v0 (lidx_main_v7 (ix3 b n a) f) = ix3 b f n :=
  funext fun d => by match d with | ⟨0, _⟩ => rfl | ⟨1, _⟩ => rfl | ⟨2, _⟩ => rfl

theorem rhs_v7 (b : Fin 8) (n : Fin 2048) (a : Fin 64) (f : Fin 128) : ridx_main_v7 (ix3 b n a) f = ix2 f a :=
  funext fun d => by match d with | ⟨0, _⟩ => rfl | ⟨1, _⟩ => rfl

/-- The contraction against the first weight matrix is the projection on it. -/
theorem v1_proj (b : Fin 8) (n : Fin 2048) (a : Fin 64) :
    val_main_v1 (F := Ideal) x0 x1 (ix3 b n a) = proj x0 x1 b n a := by
  rw [val_main_v1_apply]
  unfold proj
  refine Finset.sum_congr rfl fun f _ => ?_
  rw [val_main_v0_apply, lhs_v1, rhs_v1]

/-- The contraction against the second weight matrix likewise. -/
theorem v7_proj (b : Fin 8) (n : Fin 2048) (a : Fin 64) :
    val_main_v7 (F := Ideal) x0 x2 (ix3 b n a) = proj x0 x2 b n a := by
  rw [val_main_v7_apply]
  unfold proj
  refine Finset.sum_congr rfl fun f _ => ?_
  rw [val_main_v0_apply, lhs_v7, rhs_v7]

/-- The select of the projection and its hundredth by the comparison with zero is the rectified projection. -/
theorem v6_feat (b : Fin 8) (n : Fin 2048) (a : Fin 64) :
    val_main_v6 (F := Ideal) x0 x1 (ix3 b n a) = feat x0 x1 b n a := by
  rw [val_main_v6_apply, val_main_v3_apply, val_main_v5_apply, val_main_v2_apply, val_main_v4_apply,
    val_main_cst_apply, val_main_cst_0_apply, v1_proj]
  rfl

theorem v12_feat (b : Fin 8) (n : Fin 2048) (a : Fin 64) :
    val_main_v12 (F := Ideal) x0 x2 (ix3 b n a) = feat x0 x2 b n a := by
  rw [val_main_v12_apply, val_main_v9_apply, val_main_v11_apply, val_main_v8_apply, val_main_v10_apply,
    val_main_cst_1_apply, val_main_cst_2_apply, v7_proj]
  rfl

/-! ## The scores -/

theorem lhs_v13 (b : Fin 8) (n m : Fin 2048) (a : Fin 64) : lidx_main_v13 (ix3 b n m) a = ix3 b n a :=
  funext fun d => by match d with | ⟨0, _⟩ => rfl | ⟨1, _⟩ => rfl | ⟨2, _⟩ => rfl

theorem rhs_v13 (b : Fin 8) (n m : Fin 2048) (a : Fin 64) : ridx_main_v13 (ix3 b n m) a = ix3 b m a :=
  funext fun d => by match d with | ⟨0, _⟩ => rfl | ⟨1, _⟩ => rfl | ⟨2, _⟩ => rfl

/-- The batched contraction of the query and key features over the feature axis is the score. -/
theorem v13_score (b : Fin 8) (n m : Fin 2048) :
    val_main_v13 (F := Ideal) x0 x1 x2 (ix3 b n m) = score x0 x1 x2 b n m := by
  rw [val_main_v13_apply]
  unfold score
  refine Finset.sum_congr rfl fun a _ => ?_
  rw [lhs_v13, rhs_v13, v6_feat, v12_feat]

/-! ## The column maximum -/

/-- Column (b, m) with query node `n` put back on the reduced axis is (b, n, m). -/
theorem lift_col (h : S8x2048x2048.Reduces [1] S8x2048) (b : Fin 8) (m : Fin 2048) (n : Fin 2048) :
    h.lift (ix2 b m) n = ix3 b n m :=
  funext fun d => Fin.ext (by match d with | ⟨0, _⟩ => rfl | ⟨1, _⟩ => rfl | ⟨2, _⟩ => rfl)

/-- The reduction by maximum over axis 1 from `-∞`, and the maximum of the result with `-∞`, is the fold of `max`
    over the column's scores from `-∞`. -/
theorem v16_colMax (b : Fin 8) (m : Fin 2048) :
    val_main_v16 (F := Ideal) x0 x1 x2 (ix2 b m) = colMax x0 x1 x2 b m := by
  have h : S8x2048x2048.Reduces [1] S8x2048 := by decide
  rw [val_main_v16_apply, val_main_v15_apply, val_main_cst_4_apply]
  unfold val_main_v14
  rw [Host.reduce_eq_fold_single FloatOps.maximumf _ _ reducesTo_S8x2048x2048_S8x2048_d1 h h_S_]
  have e : (val_main_v13 (F := Ideal) x0 x1 x2 ∘ h.lift (ix2 b m)) = fun n : Fin 2048 => score x0 x1 x2 b n m :=
    funext fun (n : Fin 2048) =>
      (congrArg (val_main_v13 (F := Ideal) x0 x1 x2) (lift_col h b m n)).trans (v13_score x0 x1 x2 b n m)
  rw [e]
  show max (Ideal.ofBits .f32 0xFF800000#32)
    (Finset.univ.fold max (Ideal.ofBits .f32 0xFF800000#32) fun n : Fin 2048 => score x0 x1 x2 b n m) = _
  rw [max_eq_right ((Finset.le_fold_max _).2 (Or.inl le_rfl))]
  rfl

/-! ## The exponentials, their column sums, the quotient -/

theorem col_of_v18 (b : Fin 8) (n m : Fin 2048) : idx_main_v17 (idx_main_v18 (ix3 b n m)) = ix2 b m :=
  funext fun d => by match d with | ⟨0, _⟩ => rfl | ⟨1, _⟩ => rfl

theorem col_of_v23 (b : Fin 8) (n m : Fin 2048) : idx_main_v22 (idx_main_v23 (ix3 b n m)) = ix2 b m :=
  funext fun d => by match d with | ⟨0, _⟩ => rfl | ⟨1, _⟩ => rfl

theorem row_of_v21 (b : Fin 8) (m : Fin 2048) (n : Fin 2048) : idx_main_v21 (ix2 b m) n = ix3 b n m :=
  funext fun d => by match d with | ⟨0, _⟩ => rfl | ⟨1, _⟩ => rfl | ⟨2, _⟩ => rfl

/-- The exponential of the score less the column maximum broadcast back over the rows. -/
theorem v20_expo (b : Fin 8) (n m : Fin 2048) :
    val_main_v20 (F := Ideal) x0 x1 x2 (ix3 b n m) = expo x0 x1 x2 b n m := by
  rw [val_main_v20_apply, val_main_v19_apply, v13_score, val_main_v18_apply, val_main_v17_apply, col_of_v18, v16_colMax]
  rfl

/-- The reduction by sum over axis 1 from zero is the column sum. -/
theorem v21_colSum (b : Fin 8) (m : Fin 2048) :
    val_main_v21 (F := Ideal) x0 x1 x2 (ix2 b m) = colSum x0 x1 x2 b m := by
  rw [val_main_v21_apply]
  show Ideal.ofBits .f32 0x00000000#32 + _ = _
  rw [Ideal.ofBits_zero_f32, zero_add]
  unfold colSum
  refine Finset.sum_congr rfl fun n _ => ?_
  rw [row_of_v21, v20_expo]

/-- THE REFERENCE'S RESULT is the specification. -/
theorem result_eq : val_main_v24 (F := Ideal) x0 x1 x2 = weights x0 x1 x2 := by
  funext i
  obtain ⟨b, n, m, rfl⟩ : ∃ (b : Fin 8) (n m : Fin 2048), i = ix3 b n m := ⟨i 0, i 1, i 2, eq_ix3 i⟩
  rw [val_main_v24_apply, v20_expo, val_main_v23_apply, val_main_v22_apply, col_of_v23, v21_colSum]
  rfl

end Cert.ReferenceIdeal.RefValue

end
-- ==== Proof.KernelPiece.lean ====
/-
  What one grid point's body leaves in the output block, for any float values: the body makes one store that covers
  the block, and its payload is the product of the exponentials with the broadcast reciprocal of their column sums,
  both functions of the two weight blocks, the node-feature block of the batch, and that block's columns
  [512 j, 512 j + 512) — the key tile, which the body loads a second time at a computed offset.
-/
import proofs.«412591_j7224134992186_3_alg».proof.Proof.Gen.KernelIdeal.Frame
import Idealize.ShloMosaic.Lib.Pipeline.Value
import Idealize.ShloMosaic.Lib.ValueIdx
import Idealize.ShloMosaic.Lib.Tactic

noncomputable section

namespace Cert.KernelIdeal.BlockValue

open Cert.KernelIdeal Cert.KernelIdeal.Gen
open Idealize.ShloMosaic Idealize.ShloMosaic.TcCoe Idealize.SL.Sem Idealize.ShloMosaic.ValueIdx

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The key tile at grid point `i`: columns [512 · i₁, 512 · i₁ + 512) of the batch's node-feature block. -/
def keyTile (i : grid0.Coords) (x2 : Vec F S1x128x2048 .f32) : Vec F S1x128x512 .f32 :=
  View.ld x2 (Rect.unit (s := S1x128x2048) (k0_off1 i) S1x128x512.size (k0_off1_inb i))

/-- Entry (0, f, m') of the key tile is entry (0, f, 512 · i₁ + m') of the block. -/
theorem keyTile_apply (i : grid0.Coords) (x2 : Vec F S1x128x2048 .f32) (f : Fin 128) (m' : Fin 512) (mm : Fin 2048)
    (hm : mm.val = 512 * (i 1).val + m'.val) :
    keyTile i x2 (ix3 (0 : Fin 1) f m') = x2 (ix3 (0 : Fin 1) f mm) := by
  unfold keyTile
  show x2 ((Rect.unit (s := S1x128x2048) (k0_off1 i) S1x128x512.size (k0_off1_inb i)).emb (ix3 (0 : Fin 1) f m')) = _
  refine congrArg x2 (funext fun a => Fin.ext ?_)
  rw [Rect.emb_apply]
  show k0_off1 i a + 1 * ((ix3 (0 : Fin 1) f m') a).val = _
  rw [k0_off1_eq i]
  match a with
  | ⟨0, _⟩ => rfl
  | ⟨1, _⟩ => show 0 + 1 * f.val = f.val; omega
  | ⟨2, _⟩ => show 512 * (i 1).val + 1 * m'.val = mm.val; omega

/-- THE BLOCK THE BODY LEAVES: its one covering store's payload, the loads of whole staging buffers reading their
    contents. -/
theorem out_piece (c : Dev nD) (i : grid0.Coords) (a2 : Memref sig .tc .vmem S128x64 .f32) (h2 : a2.IsWhole)
    (a3 : Memref sig .tc .vmem S128x64 .f32) (h3 : a3.IsWhole) (a4 : Memref sig .tc .vmem S1x128x2048 .f32) (h4 : a4.IsWhole)
    (a5 : Memref sig .tc .vmem S1x2048x512 .f32) (h5 : a5.IsWhole)
    (x0 x1 : Vec F S128x64 .f32) (x2 : Vec F S1x128x2048 .f32) :
    out0_A_3 c i a2 h2 a3 h3 a4 h4 a5 h5 x0 x1 x2
      = k0_pay1 (k0_pay2 x0 x1 x2 (keyTile i x2)) (k0_pay3 x0 x1 x2 (keyTile i x2)) := by
  unfold out0_A_3
  rw [View.read_writes_eq_canon _ _ _ (cover0_A_3 c i a2 h2 a3 h3 a4 h4 a5 h5 x0 x1 x2)]
  unfold kernelRun0_A
  dsimp only
  sl_unfold_words
  rw [View.canon_unit_zero hz3]
  simp only [View.readAt_eq_ld, h2.read_unread, h3.read_unread, h4.read_unread, View.ld_unit_zero (S := S128x64) hz2,
    View.ld_unit_zero (S := S1x128x2048) hz3]
  rfl

end Cert.KernelIdeal.BlockValue

end
-- ==== Proof.KernelBlock.lean ====
/-
  One grid point's payload read at an index, at the extended reals, and set against the specification. The payload's
  stages are named (the query and key projections with the feature axis first, their rectification, the score tile,
  its column maxima, the exponentials, the reciprocal column sums); each is read at an index: a contraction of two
  operands over their first axes as `Σ_f l[f,a] · r[f,n]`, the reductions over the rows as a fold of `max` and a sum over
  the 2048 rows, the casts that add or drop a unit axis and the broadcast of a row down the rows by their coordinates.
  With the blocks read where the grid point's windows put them — the batch's node features, and their columns
  [512 j, 512 j + 512) for the keys — the stages are the specification's at batch `b`, column 512 j + m'; and for real
  arguments the product of an exponential with the reciprocal of its column sum is the quotient (the one use of
  finiteness).
-/
import proofs.«412591_j7224134992186_3_alg».proof.Proof.Gen.KernelIdeal.Skeleton
import proofs.«412591_j7224134992186_3_alg».proof.Proof.Spec
import Idealize.ShloMosaic.PureOps.Ideal.Laws
import Idealize.ShloMosaic.Lib.Pipeline.Value
import Idealize.ShloMosaic.Lib.ValueIdx

open scoped BigOperators

noncomputable section

namespace Cert.KernelIdeal.BlockValue

open Cert.KernelIdeal Cert.KernelIdeal.Gen
open Idealize.ShloMosaic Idealize.ShloMosaic.ValueIdx Cert.ColSoftmax RealClosure

/-! ## The three contractions, read at an index -/

/-! ### The query projection: weights [128, 64] against features [128, 2048] -/

theorem lhs_mmQ_0 (j : S64x2048.Idx) (q : dot_S128x64_S128x2048_S64x2048_0_0_1_1_n_n.contr.Idx) :
    (dot_S128x64_S128x2048_S64x2048_0_0_1_1_n_n.lhsIdx j q 0).val = (q ⟨0, by decide⟩).val :=
  dot_S128x64_S128x2048_S64x2048_0_0_1_1_n_n.lhsIdx_val_of_single rfl j q
theorem lhs_mmQ_1 (j : S64x2048.Idx) (q : dot_S128x64_S128x2048_S64x2048_0_0_1_1_n_n.contr.Idx) :
    (dot_S128x64_S128x2048_S64x2048_0_0_1_1_n_n.lhsIdx j q 1).val = (j 0).val := by
  unfold DotDims.lhsIdx
  rw [dif_neg (show ¬(1 : Fin S128x64.rank) ∈ dot_S128x64_S128x2048_S64x2048_0_0_1_1_n_n.lhsBatch by decide), dif_pos (show (1 : Fin S128x64.rank) ∈ dot_S128x64_S128x2048_S64x2048_0_0_1_1_n_n.lhsNonContracting by decide)]
  rfl
theorem rhs_mmQ_0 (j : S64x2048.Idx) (q : dot_S128x64_S128x2048_S64x2048_0_0_1_1_n_n.contr.Idx) :
    (dot_S128x64_S128x2048_S64x2048_0_0_1_1_n_n.rhsIdx j q 0).val = (q ⟨0, by decide⟩).val :=
  dot_S128x64_S128x2048_S64x2048_0_0_1_1_n_n.rhsIdx_val_of_single rfl j q
theorem rhs_mmQ_1 (j : S64x2048.Idx) (q : dot_S128x64_S128x2048_S64x2048_0_0_1_1_n_n.contr.Idx) :
    (dot_S128x64_S128x2048_S64x2048_0_0_1_1_n_n.rhsIdx j q 1).val = (j 1).val := by
  unfold DotDims.rhsIdx
  rw [dif_neg (show ¬(1 : Fin S128x2048.rank) ∈ dot_S128x64_S128x2048_S64x2048_0_0_1_1_n_n.rhsBatch by decide), dif_pos (show (1 : Fin S128x2048.rank) ∈ dot_S128x64_S128x2048_S64x2048_0_0_1_1_n_n.rhsNonContracting by decide)]
  rfl

/-- Into a zero accumulator, at (a, n): `Σ_f l[f,a] · r[f,n]`, both operands contracted over their first axis. -/
theorem mmQ_apply (l : FVec Ideal S128x64 .bf16) (r : FVec Ideal S128x2048 .bf16) (a : Fin 64) (n : Fin 2048) :
    matmul dot_S128x64_S128x2048_S64x2048_0_0_1_1_n_n none l r (constant (F := Ideal) S64x2048 .f32 0x00000000#32) (ix2 a n)
      = ∑ f : Fin 128, l (ix2 f a) * r (ix2 f n) := by
  show FloatOps.matmul dot_S128x64_S128x2048_S64x2048_0_0_1_1_n_n none l r (constant (F := Ideal) S64x2048 .f32 0x00000000#32) (ix2 a n) = _
  rw [Ideal.matmul_constant_zero_apply, ← Equiv.sum_comp (contrEquiv1 dot_S128x64_S128x2048_S64x2048_0_0_1_1_n_n 128 rfl rfl).symm]
  refine Finset.sum_congr rfl fun f _ => ?_
  have hk := contrEquiv1_symm_val dot_S128x64_S128x2048_S64x2048_0_0_1_1_n_n 128 rfl rfl f
  have el : dot_S128x64_S128x2048_S64x2048_0_0_1_1_n_n.lhsIdx (ix2 a n) ((contrEquiv1 dot_S128x64_S128x2048_S64x2048_0_0_1_1_n_n 128 rfl rfl).symm f) = ix2 f a := funext fun d => Fin.ext (by
    match d with
    | ⟨0, _⟩ => exact (lhs_mmQ_0 _ _).trans hk
    | ⟨1, _⟩ => exact lhs_mmQ_1 _ _)
  have er : dot_S128x64_S128x2048_S64x2048_0_0_1_1_n_n.rhsIdx (ix2 a n) ((contrEquiv1 dot_S128x64_S128x2048_S64x2048_0_0_1_1_n_n 128 rfl rfl).symm f) = ix2 f n := funext fun d => Fin.ext (by
    match d with
    | ⟨0, _⟩ => exact (rhs_mmQ_0 _ _).trans hk
    | ⟨1, _⟩ => exact rhs_mmQ_1 _ _)
  rw [el, er]

/-! ### The key projection: weights [128, 64] against the key tile [128, 512] -/

theorem lhs_mmK_0 (j : S64x512.Idx) (q : dot_S128x64_S128x512_S64x512_0_0_1_1_n_n.contr.Idx) :
    (dot_S128x64_S128x512_S64x512_0_0_1_1_n_n.lhsIdx j q 0).val = (q ⟨0, by decide⟩).val :=
  dot_S128x64_S128x512_S64x512_0_0_1_1_n_n.lhsIdx_val_of_single rfl j q
theorem lhs_mmK_1 (j : S64x512.Idx) (q : dot_S128x64_S128x512_S64x512_0_0_1_1_n_n.contr.Idx) :
    (dot_S128x64_S128x512_S64x512_0_0_1_1_n_n.lhsIdx j q 1).val = (j 0).val := by
  unfold DotDims.lhsIdx
  rw [dif_neg (show ¬(1 : Fin S128x64.rank) ∈ dot_S128x64_S128x512_S64x512_0_0_1_1_n_n.lhsBatch by decide), dif_pos (show (1 : Fin S128x64.rank) ∈ dot_S128x64_S128x512_S64x512_0_0_1_1_n_n.lhsNonContracting by decide)]
  rfl
theorem rhs_mmK_0 (j : S64x512.Idx) (q : dot_S128x64_S128x512_S64x512_0_0_1_1_n_n.contr.Idx) :
    (dot_S128x64_S128x512_S64x512_0_0_1_1_n_n.rhsIdx j q 0).val = (q ⟨0, by decide⟩).val :=
  dot_S128x64_S128x512_S64x512_0_0_1_1_n_n.rhsIdx_val_of_single rfl j q
theorem rhs_mmK_1 (j : S64x512.Idx) (q : dot_S128x64_S128x512_S64x512_0_0_1_1_n_n.contr.Idx) :
    (dot_S128x64_S128x512_S64x512_0_0_1_1_n_n.rhsIdx j q 1).val = (j 1).val := by
  unfold DotDims.rhsIdx
  rw [dif_neg (show ¬(1 : Fin S128x512.rank) ∈ dot_S128x64_S128x512_S64x512_0_0_1_1_n_n.rhsBatch by decide), dif_pos (show (1 : Fin S128x512.rank) ∈ dot_S128x64_S128x512_S64x512_0_0_1_1_n_n.rhsNonContracting by decide)]
  rfl

/-- Into a zero accumulator, at (a, n): `Σ_f l[f,a] · r[f,n]`, both operands contracted over their first axis. -/
theorem mmK_apply (l : FVec Ideal S128x64 .bf16) (r : FVec Ideal S128x512 .bf16) (a : Fin 64) (n : Fin 512) :
    matmul dot_S128x64_S128x512_S64x512_0_0_1_1_n_n none l r (constant (F := Ideal) S64x512 .f32 0x00000000#32) (ix2 a n)
      = ∑ f : Fin 128, l (ix2 f a) * r (ix2 f n) := by
  show FloatOps.matmul dot_S128x64_S128x512_S64x512_0_0_1_1_n_n none l r (constant (F := Ideal) S64x512 .f32 0x00000000#32) (ix2 a n) = _
  rw [Ideal.matmul_constant_zero_apply, ← Equiv.sum_comp (contrEquiv1 dot_S128x64_S128x512_S64x512_0_0_1_1_n_n 128 rfl rfl).symm]
  refine Finset.sum_congr rfl fun f _ => ?_
  have hk := contrEquiv1_symm_val dot_S128x64_S128x512_S64x512_0_0_1_1_n_n 128 rfl rfl f
  have el : dot_S128x64_S128x512_S64x512_0_0_1_1_n_n.lhsIdx (ix2 a n) ((contrEquiv1 dot_S128x64_S128x512_S64x512_0_0_1_1_n_n 128 rfl rfl).symm f) = ix2 f a := funext fun d => Fin.ext (by
    match d with
    | ⟨0, _⟩ => exact (lhs_mmK_0 _ _).trans hk
    | ⟨1, _⟩ => exact lhs_mmK_1 _ _)
  have er : dot_S128x64_S128x512_S64x512_0_0_1_1_n_n.rhsIdx (ix2 a n) ((contrEquiv1 dot_S128x64_S128x512_S64x512_0_0_1_1_n_n 128 rfl rfl).symm f) = ix2 f n := funext fun d => Fin.ext (by
    match d with
    | ⟨0, _⟩ => exact (rhs_mmK_0 _ _).trans hk
    | ⟨1, _⟩ => exact rhs_mmK_1 _ _)
  rw [el, er]

/-! ### The scores: query features [64, 2048] against key features [64, 512] -/

theorem lhs_mmS_0 (j : S2048x512.Idx) (q : dot_S64x2048_S64x512_S2048x512_0_0_1_1_n_n.contr.Idx) :
    (dot_S64x2048_S64x512_S2048x512_0_0_1_1_n_n.lhsIdx j q 0).val = (q ⟨0, by decide⟩).val :=
  dot_S64x2048_S64x512_S2048x512_0_0_1_1_n_n.lhsIdx_val_of_single rfl j q
theorem lhs_mmS_1 (j : S2048x512.Idx) (q : dot_S64x2048_S64x512_S2048x512_0_0_1_1_n_n.contr.Idx) :
    (dot_S64x2048_S64x512_S2048x512_0_0_1_1_n_n.lhsIdx j q 1).val = (j 0).val := by
  unfold DotDims.lhsIdx
  rw [dif_neg (show ¬(1 : Fin S64x2048.rank) ∈ dot_S64x2048_S64x512_S2048x512_0_0_1_1_n_n.lhsBatch by decide), dif_pos (show (1 : Fin S64x2048.rank) ∈ dot_S64x2048_S64x512_S2048x512_0_0_1_1_n_n.lhsNonContracting by decide)]
  rfl
theorem rhs_mmS_0 (j : S2048x512.Idx) (q : dot_S64x2048_S64x512_S2048x512_0_0_1_1_n_n.contr.Idx) :
    (dot_S64x2048_S64x512_S2048x512_0_0_1_1_n_n.rhsIdx j q 0).val = (q ⟨0, by decide⟩).val :=
  dot_S64x2048_S64x512_S2048x512_0_0_1_1_n_n.rhsIdx_val_of_single rfl j q
theorem rhs_mmS_1 (j : S2048x512.Idx) (q : dot_S64x2048_S64x512_S2048x512_0_0_1_1_n_n.contr.Idx) :
    (dot_S64x2048_S64x512_S2048x512_0_0_1_1_n_n.rhsIdx j q 1).val = (j 1).val := by
  unfold DotDims.rhsIdx
  rw [dif_neg (show ¬(1 : Fin S64x512.rank) ∈ dot_S64x2048_S64x512_S2048x512_0_0_1_1_n_n.rhsBatch by decide), dif_pos (show (1 : Fin S64x512.rank) ∈ dot_S64x2048_S64x512_S2048x512_0_0_1_1_n_n.rhsNonContracting by decide)]
  rfl

/-- Into a zero accumulator, at (a, n): `Σ_f l[f,a] · r[f,n]`, both operands contracted over their first axis. -/
theorem mmS_apply (l : FVec Ideal S64x2048 .bf16) (r : FVec Ideal S64x512 .bf16) (a : Fin 2048) (n : Fin 512) :
    matmul dot_S64x2048_S64x512_S2048x512_0_0_1_1_n_n none l r (constant (F := Ideal) S2048x512 .f32 0x00000000#32) (ix2 a n)
      = ∑ f : Fin 64, l (ix2 f a) * r (ix2 f n) := by
  show FloatOps.matmul dot_S64x2048_S64x512_S2048x512_0_0_1_1_n_n none l r (constant (F := Ideal) S2048x512 .f32 0x00000000#32) (ix2 a n) = _
  rw [Ideal.matmul_constant_zero_apply, ← Equiv.sum_comp (contrEquiv1 dot_S64x2048_S64x512_S2048x512_0_0_1_1_n_n 64 rfl rfl).symm]
  refine Finset.sum_congr rfl fun f _ => ?_
  have hk := contrEquiv1_symm_val dot_S64x2048_S64x512_S2048x512_0_0_1_1_n_n 64 rfl rfl f
  have el : dot_S64x2048_S64x512_S2048x512_0_0_1_1_n_n.lhsIdx (ix2 a n) ((contrEquiv1 dot_S64x2048_S64x512_S2048x512_0_0_1_1_n_n 64 rfl rfl).symm f) = ix2 f a := funext fun d => Fin.ext (by
    match d with
    | ⟨0, _⟩ => exact (lhs_mmS_0 _ _).trans hk
    | ⟨1, _⟩ => exact lhs_mmS_1 _ _)
  have er : dot_S64x2048_S64x512_S2048x512_0_0_1_1_n_n.rhsIdx (ix2 a n) ((contrEquiv1 dot_S64x2048_S64x512_S2048x512_0_0_1_1_n_n 64 rfl rfl).symm f) = ix2 f n := funext fun d => Fin.ext (by
    match d with
    | ⟨0, _⟩ => exact (rhs_mmS_0 _ _).trans hk
    | ⟨1, _⟩ => exact rhs_mmS_1 _ _)
  rw [el, er]

/-! ## Layout operations at an index -/

/-- Dropping the leading unit axis of the feature block. -/
theorem cast_feat_apply (x2 : Vec Ideal S1x128x2048 .f32) (f : Fin 128) (n : Fin 2048) :
    shapeCast S128x2048 x2 shapeCasts_S1x128x2048_S128x2048 (ix2 f n) = x2 (ix3 (0 : Fin 1) f n) := by
  rw [shapeCast_dropUnit_apply ![128, 2048] x2 shapeCasts_S1x128x2048_S128x2048 (ix2 f n)]
  exact congrArg x2 (funext fun d => by match d with | ⟨0, _⟩ => rfl | ⟨1, _⟩ => rfl | ⟨2, _⟩ => rfl)

/-- Dropping the leading unit axis of the key tile. -/
theorem cast_tile_apply (v : Vec Ideal S1x128x512 .f32) (f : Fin 128) (m' : Fin 512) :
    shapeCast S128x512 v shapeCasts_S1x128x512_S128x512 (ix2 f m') = v (ix3 (0 : Fin 1) f m') := by
  rw [shapeCast_dropUnit_apply ![128, 512] v shapeCasts_S1x128x512_S128x512 (ix2 f m')]
  exact congrArg v (funext fun d => by match d with | ⟨0, _⟩ => rfl | ⟨1, _⟩ => rfl | ⟨2, _⟩ => rfl)

/-- A vector of 512 as one row. -/
theorem cast_row_apply (v : FVec Ideal S512 .f32) (m' : Fin 512) :
    shapeCast S1x512 v shapeCasts_S512_S1x512 (ix2 (0 : Fin 1) m') = v (ix1 m') := by
  rw [shapeCast_addUnit_apply ![512] v shapeCasts_S512_S1x512 (ix2 (0 : Fin 1) m')]
  exact congrArg v (funext fun d => by match d with | ⟨0, _⟩ => rfl)

/-- One row broadcast down the 2048 rows. -/
theorem bcast_row_apply (r : FVec Ideal S1x512 .f32) (n : Fin 2048) (m' : Fin 512) :
    broadcastTo S2048x512 r broadcasts_S1x512_S2048x512 (ix2 n m') = r (ix2 (0 : Fin 1) m') :=
  broadcastTo_apply r broadcasts_S1x512_S2048x512 (ix2 n m') (ix2 (0 : Fin 1) m') (fun a => by
    match a with
    | ⟨0, _⟩ => show 0 = if (1 : Nat) = 1 then 0 else n.val; rw [if_pos rfl]
    | ⟨1, _⟩ => show m'.val = if (512 : Nat) = 1 then 0 else m'.val; rw [if_neg (by decide)])

/-- The output tile with its leading unit axis added. -/
theorem cast_block_apply (w : FVec Ideal S2048x512 .f32) (n : Fin 2048) (m' : Fin 512) :
    shapeCast S1x2048x512 w shapeCasts_S2048x512_S1x2048x512 (ix3 (0 : Fin 1) n m') = w (ix2 n m') := by
  rw [shapeCast_addUnit_apply ![2048, 512] w shapeCasts_S2048x512_S1x2048x512 (ix3 (0 : Fin 1) n m')]
  exact congrArg w (funext fun d => by match d with | ⟨0, _⟩ => rfl | ⟨1, _⟩ => rfl)

/-! ## The payload's stages -/

/-- The leaky rectifier on a vector, as the body spells it. -/
def rectify {s : Shape} (v : FVec Ideal s .f32) : FVec Ideal s .f32 :=
  select (cmpf .oge v (broadcast s (Scalar.ofBits .f32 0x00000000#32))) v
    (mulf (broadcast s (Scalar.ofBits .f32 0x3C23D70A#32)) v)

theorem rectify_apply {s : Shape} (v : FVec Ideal s .f32) (i : s.Idx) : rectify v i = leaky (v i) := rfl

/-- The query projection, feature axis first: [64, 2048]. -/
def queryT (x0 : Vec Ideal S128x64 .f32) (x2 : Vec Ideal S1x128x2048 .f32) : FVec Ideal S64x2048 .f32 :=
  matmul dot_S128x64_S128x2048_S64x2048_0_0_1_1_n_n none (truncf .bf16 x0 bitsLt_bf16_f32)
    (truncf .bf16 (shapeCast S128x2048 x2 shapeCasts_S1x128x2048_S128x2048) bitsLt_bf16_f32)
    (constant S64x2048 .f32 0x00000000#32)

/-- The key projection of the key tile, feature axis first: [64, 512]. -/
def keyT (x1 : Vec Ideal S128x64 .f32) (v17 : Vec Ideal S1x128x512 .f32) : FVec Ideal S64x512 .f32 :=
  matmul dot_S128x64_S128x512_S64x512_0_0_1_1_n_n none (truncf .bf16 x1 bitsLt_bf16_f32)
    (truncf .bf16 (shapeCast S128x512 v17 shapeCasts_S1x128x512_S128x512) bitsLt_bf16_f32)
    (constant S64x512 .f32 0x00000000#32)

/-- The score tile [2048, 512]. -/
def scores (x0 x1 : Vec Ideal S128x64 .f32) (x2 : Vec Ideal S1x128x2048 .f32) (v17 : Vec Ideal S1x128x512 .f32) :
    FVec Ideal S2048x512 .f32 :=
  matmul dot_S64x2048_S64x512_S2048x512_0_0_1_1_n_n none (truncf .bf16 (rectify (queryT x0 x2)) bitsLt_bf16_f32)
    (truncf .bf16 (rectify (keyT x1 v17)) bitsLt_bf16_f32) (constant S2048x512 .f32 0x00000000#32)

/-- The column maxima of a tile. -/
def colMaxV (s : FVec Ideal S2048x512 .f32) : FVec Ideal S512 .f32 :=
  multiReduction .maximumf [0] S512 s 0xFF800000#32 reduces_S2048x512_S512 (.inl rfl) rfl

/-- The column sums of a tile. -/
def colSumV (p : FVec Ideal S2048x512 .f32) : FVec Ideal S512 .f32 :=
  multiReduction .add [0] S512 p 0x00000000#32 reduces_S2048x512_S512 (.inl rfl) rfl

/-- The exponentials of a tile less its column maxima. -/
def expos (s : FVec Ideal S2048x512 .f32) : FVec Ideal S2048x512 .f32 :=
  exp (subf s (broadcastTo S2048x512 (shapeCast S1x512 (colMaxV s) shapeCasts_S512_S1x512) broadcasts_S1x512_S2048x512))

/-- The reciprocals of a tile's column sums, broadcast down the rows. -/
def recips (p : FVec Ideal S2048x512 .f32) : FVec Ideal S2048x512 .f32 :=
  broadcastTo S2048x512 (divf (broadcast S1x512 (Scalar.ofBits .f32 0x3F800000#32))
    (shapeCast S1x512 (colSumV p) shapeCasts_S512_S1x512)) broadcasts_S1x512_S2048x512

section Payload
variable (x0 x1 : Vec Ideal S128x64 .f32) (x2 : Vec Ideal S1x128x2048 .f32) (v17 : Vec Ideal S1x128x512 .f32)

/-- The generated payloads are these stages composed. -/
theorem pay2_eq : k0_pay2 x0 x1 x2 v17 = expos (scores x0 x1 x2 v17) := rfl
theorem pay3_eq : k0_pay3 x0 x1 x2 v17 = recips (k0_pay2 x0 x1 x2 v17) := rfl
theorem pay1_eq (p r : FVec Ideal S2048x512 .f32) :
    k0_pay1 p r = shapeCast S1x2048x512 (mulf p r) shapeCasts_S2048x512_S1x2048x512 := rfl

theorem queryT_apply (a : Fin 64) (n : Fin 2048) :
    queryT x0 x2 (ix2 a n) = ∑ f : Fin 128, x0 (ix2 f a) * x2 (ix3 (0 : Fin 1) f n) := by
  unfold queryT
  rw [mmQ_apply]
  refine Finset.sum_congr rfl fun f _ => ?_
  show x0 (ix2 f a) * shapeCast S128x2048 x2 shapeCasts_S1x128x2048_S128x2048 (ix2 f n) = _
  rw [cast_feat_apply]

theorem keyT_apply (a : Fin 64) (m' : Fin 512) :
    keyT x1 v17 (ix2 a m') = ∑ f : Fin 128, x1 (ix2 f a) * v17 (ix3 (0 : Fin 1) f m') := by
  unfold keyT
  rw [mmK_apply]
  refine Finset.sum_congr rfl fun f _ => ?_
  show x1 (ix2 f a) * shapeCast S128x512 v17 shapeCasts_S1x128x512_S128x512 (ix2 f m') = _
  rw [cast_tile_apply]

theorem scores_apply (n : Fin 2048) (m' : Fin 512) :
    scores x0 x1 x2 v17 (ix2 n m')
      = ∑ a : Fin 64, leaky (queryT x0 x2 (ix2 a n)) * leaky (keyT x1 v17 (ix2 a m')) := by
  unfold scores
  rw [mmS_apply]
  rfl

end Payload

/-- A tile's column maximum is the fold of `max` from `-∞` over the column's 2048 entries. -/
theorem colMaxV_apply (s : FVec Ideal S2048x512 .f32) (m' : Fin 512) :
    colMaxV s (ix1 m') = Finset.univ.fold max (Ideal.ofBits .f32 0xFF800000#32) fun n : Fin 2048 => s (ix2 n m') := by
  unfold colMaxV
  refine (Ideal.multiReduction_maximumf_single s 0xFF800000#32 reduces_S2048x512_S512 (.inl rfl) rfl (ix1 m')).trans ?_
  have e : (s ∘ reduces_S2048x512_S512.lift (ix1 m')) = fun n : Fin 2048 => s (ix2 n m') :=
    funext fun (n : Fin 2048) => congrArg s (funext fun d => Fin.ext (by match d with | ⟨0, _⟩ => rfl | ⟨1, _⟩ => rfl))
  rw [e]
  rfl

/-- A tile's column sum is the sum of the column's 2048 entries. -/
theorem colSumV_apply (p : FVec Ideal S2048x512 .f32) (m' : Fin 512) :
    colSumV p (ix1 m') = ∑ n : Fin 2048, p (ix2 n m') := by
  unfold colSumV
  refine (Ideal.multiReduction_add_single p 0x00000000#32 reduces_S2048x512_S512 (.inl rfl) rfl (ix1 m')).trans ?_
  exact Finset.sum_congr rfl fun n _ =>
    congrArg p (funext fun d => Fin.ext (by match d with | ⟨0, _⟩ => rfl | ⟨1, _⟩ => rfl))

theorem expos_apply (s : FVec Ideal S2048x512 .f32) (n : Fin 2048) (m' : Fin 512) :
    expos s (ix2 n m') = Ideal.exp (s (ix2 n m') - colMaxV s (ix1 m')) := by
  unfold expos
  show Ideal.exp (s (ix2 n m') - broadcastTo S2048x512 (shapeCast S1x512 (colMaxV s) shapeCasts_S512_S1x512)
    broadcasts_S1x512_S2048x512 (ix2 n m')) = _
  rw [bcast_row_apply, cast_row_apply]

theorem recips_apply (p : FVec Ideal S2048x512 .f32) (n : Fin 2048) (m' : Fin 512) :
    recips p (ix2 n m') = Ideal.div (Ideal.ofBits .f32 0x3F800000#32) (colSumV p (ix1 m')) := by
  unfold recips
  rw [bcast_row_apply]
  show Ideal.div (Ideal.ofBits .f32 0x3F800000#32) (shapeCast S1x512 (colSumV p) shapeCasts_S512_S1x512 (ix2 (0 : Fin 1) m')) = _
  rw [cast_row_apply]

/-! ## Against the specification -/

/-- Column `m'` of column tile `j` is column `512 j + m'` of the array. -/
def tileCol (jt : Fin 4) (m' : Fin 512) : Fin 2048 := ⟨512 * jt.val + m'.val, by omega⟩

section Block
variable (x : SX.Idx → EReal) (q k : SW.Idx → EReal) (b : Fin 8) (jt : Fin 4)
  (x2 : Vec Ideal S1x128x2048 .f32) (v17 : Vec Ideal S1x128x512 .f32)
  (h2 : ∀ (f : Fin 128) (n : Fin 2048), x2 (ix3 (0 : Fin 1) f n) = x (ix3 b f n))
  (h17 : ∀ (f : Fin 128) (m' : Fin 512), v17 (ix3 (0 : Fin 1) f m') = x (ix3 b f (tileCol jt m')))

include h2 in
/-- The rectified query projection is the query feature (the factors of each product in the other order). -/
theorem query_feat (a : Fin 64) (n : Fin 2048) : leaky (queryT q x2 (ix2 a n)) = feat x q b n a := by
  rw [queryT_apply]
  unfold feat proj
  exact congrArg leaky (Finset.sum_congr rfl fun f _ => by rw [h2, mul_comm])

include h17 in
theorem key_feat (a : Fin 64) (m' : Fin 512) : leaky (keyT k v17 (ix2 a m')) = feat x k b (tileCol jt m') a := by
  rw [keyT_apply]
  unfold feat proj
  exact congrArg leaky (Finset.sum_congr rfl fun f _ => by rw [h17, mul_comm])

include h2 h17

theorem scores_eq (n : Fin 2048) (m' : Fin 512) :
    scores q k x2 v17 (ix2 n m') = score x q k b n (tileCol jt m') := by
  rw [scores_apply]
  unfold score
  exact Finset.sum_congr rfl fun a _ => by rw [query_feat x q b x2 h2, key_feat x k b jt v17 h17]

theorem colMaxV_eq (m' : Fin 512) : colMaxV (scores q k x2 v17) (ix1 m') = colMax x q k b (tileCol jt m') := by
  rw [colMaxV_apply]
  unfold colMax
  exact congrArg (fun g => Finset.univ.fold max (Ideal.ofBits .f32 0xFF800000#32) g)
    (funext fun n => scores_eq x q k b jt x2 v17 h2 h17 n m')

theorem expos_eq (n : Fin 2048) (m' : Fin 512) :
    expos (scores q k x2 v17) (ix2 n m') = expo x q k b n (tileCol jt m') := by
  rw [expos_apply, scores_eq x q k b jt x2 v17 h2 h17, colMaxV_eq x q k b jt x2 v17 h2 h17]
  rfl

theorem recips_eq (n : Fin 2048) (m' : Fin 512) :
    recips (expos (scores q k x2 v17)) (ix2 n m')
      = Ideal.div (Ideal.ofBits .f32 0x3F800000#32) (colSum x q k b (tileCol jt m')) := by
  rw [recips_apply, colSumV_apply]
  unfold colSum
  exact congrArg (Ideal.div _) (Finset.sum_congr rfl fun n' _ => expos_eq x q k b jt x2 v17 h2 h17 n' m')

/-- THE BLOCK'S VALUE: for real arguments, entry (0, n, m') of what the body stores at batch `b`, column tile `j` is the
    attention weight at (b, n, 512 j + m'). -/
theorem block_value (hx : ∀ i, IsReal (x i)) (hq : ∀ i, IsReal (q i)) (hk : ∀ i, IsReal (k i))
    (n : Fin 2048) (m' : Fin 512) :
    k0_pay1 (k0_pay2 q k x2 v17) (k0_pay3 q k x2 v17) (ix3 (0 : Fin 1) n m')
      = weights x q k (ix3 b n (tileCol jt m')) := by
  rw [pay1_eq, cast_block_apply, pay3_eq, pay2_eq]
  show expos (scores q k x2 v17) (ix2 n m') * recips (expos (scores q k x2 v17)) (ix2 n m') = _
  rw [expos_eq x q k b jt x2 v17 h2 h17, recips_eq x q k b jt x2 v17 h2 h17, weights_ix3]
  exact mul_one_div_eq_div (isReal_expo x q k hx hq hk b n _) (isReal_colSum x q k hx hq hk b _)
    (colSum_pos x q k hx hq hk b _)

end Block

end Cert.KernelIdeal.BlockValue

end
-- ==== Proof.KernelRun.lean ====
/-
  From blocks to the array. Grid point t = (b, j) stages the two weight matrices whole, batch `b`'s node features
  [1, 128, 2048], and writes back block (b, 0, j) of the result, [1, 2048, 512]: all 2048 query rows of columns
  [512 j, 512 j + 512). What it writes is that block of the attention weights of the three argument arrays (the block's
  value, for real arguments); the 32 blocks cover the result array, each entry (b, n, m) in block (b, 0, m / 512); so
  after the run the result array IS the attention weights.
-/
import proofs.«412591_j7224134992186_3_alg».proof.Proof.Gen.KernelIdeal.Value
import proofs.«412591_j7224134992186_3_alg».proof.Proof.KernelPiece
import proofs.«412591_j7224134992186_3_alg».proof.Proof.KernelBlock
import Idealize.ShloMosaic.Lib.Pipeline.Value

noncomputable section

namespace Cert.KernelIdeal.BlockValue

open Cert.KernelIdeal Cert.KernelIdeal.Gen
open Idealize.ShloMosaic Idealize.ShloMosaic.TcCoe Idealize.SL.Sem Idealize.ShloMosaic.ValueIdx
open Idealize.ShloMosaic.Pipeline (Dat)
open Cert.ColSoftmax RealClosure

variable (m : (ℓ : Loc nD τ sig) → Buf (Elt Ideal) ℓ) (ρ : Dev nD → PrngReg)

/-- The printed index maps, decided over the 32 grid points: the weight windows never move; the feature window moves
    with the batch only; the output window's block index is (batch, 0, column tile), and the second grid coordinate is
    the column tile. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 3) = win0_3.index t (0 : Fin 3) ∧ win0_2.index t (1 : Fin 3) = 0 ∧ win0_2.index t (2 : Fin 3) = 0
    ∧ win0_3.index t (0 : Fin 3) < 8 ∧ win0_3.index t (1 : Fin 3) = 0 ∧ win0_3.index t (2 : Fin 3) < 4
    ∧ ((grid0.coords t) 1).val = win0_3.index t (2 : Fin 3) :=
  (by decide +kernel : ∀ t : Fin grid0.N, _)

/-- Every (batch, column tile) is some point's output block. -/
theorem idx_onto : ∀ (q0 : Fin 8) (q2 : Fin 4), ∃ t : Fin cfg0.N, win0_3.index t = ![q0.val, 0, q2.val] :=
  (by decide +kernel : ∀ (q0 : Fin 8) (q2 : Fin 4), ∃ t : Fin grid0.N, win0_3.index t = ![q0.val, 0, q2.val])

/-! ## The input blocks at a point -/

/-- The three input blocks, at their literal types. -/
abbrev qblk (c : Dev nD) (t : Fin cfg0.N) : Vec Ideal S128x64 .f32 := iblk m c 0 t
abbrev kblk (c : Dev nD) (t : Fin cfg0.N) : Vec Ideal S128x64 .f32 := iblk m c 1 t
abbrev xblk (c : Dev nD) (t : Fin cfg0.N) : Vec Ideal S1x128x2048 .f32 := iblk m c 2 t

/-- The first weight window's block is its whole array. -/
theorem qblk_eq (c : Dev nD) (t : Fin cfg0.N) : qblk m c t = V m c main_arg1 := by
  obtain ⟨e00, e01, -⟩ := idx_facts t
  funext j
  show V m c main_arg1 (((cfg0.win 0).blk t).view.emb j) = V m c main_arg1 j
  refine congrArg (V m c main_arg1) (funext fun a => Fin.ext ?_)
  match a with
  | ⟨0, _⟩ => show win0_0.index t (0 : Fin 2) * 128 + 1 * (j 0).val = (j 0).val; omega
  | ⟨1, _⟩ => show win0_0.index t (1 : Fin 2) * 64 + 1 * (j 1).val = (j 1).val; omega

/-- The second weight window's likewise. -/
theorem kblk_eq (c : Dev nD) (t : Fin cfg0.N) : kblk m c t = V m c main_arg2 := by
  obtain ⟨-, -, e10, e11, -⟩ := idx_facts t
  funext j
  show V m c main_arg2 (((cfg0.win 1).blk t).view.emb j) = V m c main_arg2 j
  refine congrArg (V m c main_arg2) (funext fun a => Fin.ext ?_)
  match a with
  | ⟨0, _⟩ => show win0_1.index t (0 : Fin 2) * 128 + 1 * (j 0).val = (j 0).val; omega
  | ⟨1, _⟩ => show win0_1.index t (1 : Fin 2) * 64 + 1 * (j 1).val = (j 1).val; omega

/-- The feature window's block is the batch's slab of the node features. -/
theorem xblk_apply (c : Dev nD) (t : Fin cfg0.N) (f : Fin 128) (n : Fin 2048) (b : Fin 8)
    (hb : b.val = win0_3.index t (0 : Fin 3)) :
    xblk m c t (ix3 (0 : Fin 1) f n) = V m c main_arg0 (ix3 b f n) := by
  obtain ⟨-, -, -, -, e20, e21, e22, -⟩ := idx_facts t
  show V m c main_arg0 (((cfg0.win 2).blk t).view.emb (ix3 (0 : Fin 1) f n)) = _
  refine congrArg (V m c main_arg0) (funext fun a => Fin.ext ?_)
  match a with
  | ⟨0, _⟩ => show win0_2.index t (0 : Fin 3) * 1 + 1 * 0 = b.val; omega
  | ⟨1, _⟩ => show win0_2.index t (1 : Fin 3) * 128 + 1 * f.val = f.val; omega
  | ⟨2, _⟩ => show win0_2.index t (2 : Fin 3) * 2048 + 1 * n.val = n.val; omega

/-! ## What a point writes back -/

section Real
variable (hx : ∀ (c : Dev nD) i, IsReal (V m c main_arg0 i)) (hq : ∀ (c : Dev nD) i, IsReal (V m c main_arg1 i))
  (hk : ∀ (c : Dev nD) i, IsReal (V m c main_arg2 i))
include hx hq hk

/-- WHAT POINT `t` WRITES BACK is block `t` of the attention weights of the argument arrays. -/
theorem flushed_eq (c : Dev nD) (t : Fin cfg0.N) :
    (dats m 0 c).flushed 3 t
      = ((cfg0.win 3).blk t).view.read (Elt Ideal) (weights (V m c main_arg0) (V m c main_arg1) (V m c main_arg2)) := by
  rw [Value.flushed3_A, out_piece]
  obtain ⟨e00, e01, e10, e11, e20, e21, e22, l30, e31, l32, ec⟩ := idx_facts t
  funext y
  have hy0 : @Eq (Fin 1) (y 0) (0 : Fin 1) :=
    Fin.ext (by have h : (y 0).val < 1 := (y 0).isLt; show (y 0).val = 0; omega)
  obtain ⟨n, m', rfl⟩ : ∃ (n : Fin 2048) (m' : Fin 512), y = ix3 (0 : Fin 1) n m' :=
    ⟨y 1, y 2, (eq_ix3 y).trans (congrArg (fun z : Fin 1 => ix3 z (y 1) (y 2)) hy0)⟩
  show k0_pay1 (k0_pay2 (qblk m c t) (kblk m c t) (xblk m c t) (keyTile (grid0.coords t) (xblk m c t)))
      (k0_pay3 (qblk m c t) (kblk m c t) (xblk m c t) (keyTile (grid0.coords t) (xblk m c t))) (ix3 (0 : Fin 1) n m')
    = weights (V m c main_arg0) (V m c main_arg1) (V m c main_arg2) (((cfg0.win 3).blk t).view.emb (ix3 (0 : Fin 1) n m'))
  have hcol : ((cfg0.win 3).blk t).view.emb (ix3 (0 : Fin 1) n m')
      = ix3 (⟨win0_3.index t (0 : Fin 3), l30⟩ : Fin 8) n (tileCol ⟨win0_3.index t (2 : Fin 3), l32⟩ m') :=
    funext fun a => Fin.ext (by
      match a with
      | ⟨0, _⟩ => show win0_3.index t (0 : Fin 3) * 1 + 1 * 0 = win0_3.index t (0 : Fin 3); omega
      | ⟨1, _⟩ => show win0_3.index t (1 : Fin 3) * 2048 + 1 * n.val = n.val; omega
      | ⟨2, _⟩ => show win0_3.index t (2 : Fin 3) * 512 + 1 * m'.val = 512 * win0_3.index t (2 : Fin 3) + m'.val; omega)
  rw [hcol, qblk_eq, kblk_eq]
  exact block_value (V m c main_arg0) (V m c main_arg1) (V m c main_arg2) ⟨win0_3.index t (0 : Fin 3), l30⟩
    ⟨win0_3.index t (2 : Fin 3), l32⟩ (xblk m c t) (keyTile (grid0.coords t) (xblk m c t))
    (fun f n => xblk_apply m c t f n _ rfl)
    (fun f m'' => (keyTile_apply (grid0.coords t) (xblk m c t) f m'' (tileCol ⟨win0_3.index t (2 : Fin 3), l32⟩ m'')
      (by show 512 * win0_3.index t (2 : Fin 3) + m''.val = 512 * ((grid0.coords t) 1).val + m''.val; rw [ec])).trans
      (xblk_apply m c t f _ _ rfl))
    (hx c) (hq c) (hk c) n m'

/-! ## The cover, and the array after the run -/

omit hx hq hk in
/-- An index of the result array is in point `t`'s block iff each coordinate is in the block's range on its axis. -/
theorem mem_blk (t : Fin cfg0.N) (i : S8x2048x2048.Idx) :
    i ∈ ((cfg0.win 3).blk t).view.set ↔ ∀ a : Fin 3, win0_3.index t a * S1x2048x512.size a ≤ (i a).val
      ∧ (i a).val < win0_3.index t a * S1x2048x512.size a + S1x2048x512.size a := by
  show i ∈ ((View.whole main_v0).slice (win0_3.rect t)).set ↔ _
  rw [View.set_slice_whole, Rect.mem_set_unit]
  exact Iff.rfl

omit hx hq hk in
/-- Every entry (b, n, m) of the result is in the block of point (b, m / 512), which writes back. -/
theorem cover (i : S8x2048x2048.Idx) :
    ∃ t : Fin cfg0.N, (cfg0.win 3).flush t = true ∧ i ∈ ((cfg0.win 3).blk t).view.set := by
  have h0 : (i 0).val < 8 := (i 0).isLt
  have h1 : (i 1).val < 2048 := (i 1).isLt
  have h2 : (i 2).val < 2048 := (i 2).isLt
  obtain ⟨t, ht⟩ := idx_onto ⟨(i 0).val, h0⟩ ⟨(i 2).val / 512, by omega⟩
  have q0 : win0_3.index t (0 : Fin 3) = (i 0).val := congrFun ht 0
  have q1 : win0_3.index t (1 : Fin 3) = 0 := congrFun ht 1
  have q2 : win0_3.index t (2 : Fin 3) = (i 2).val / 512 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 512 ≤ (i 2).val ∧ (i 2).val < win0_3.index t (2 : Fin 3) * 512 + 512; omega

/-- THE RESULT ARRAY after the run is the attention weights of the argument arrays. -/
theorem final (c : Dev nD) :
    (dats m 0 c).arrAt 3 cfg0.N = weights (V m c main_arg0) (V m c main_arg1) (V m c main_arg2) :=
  (dats m 0 c).arrAt_eq_of_cover 3 (weights (V m c main_arg0) (V m c main_arg1) (V m c main_arg2))
    (fun t _ => flushed_eq m hx hq hk c t) cover

/-- The run, read: the result array at the attention weights of the arguments, the arguments unchanged. -/
theorem run : θ_run defs (onTc (τ := τ) (main (F := Ideal))) ⟨m, fun _ => 0, ρ⟩ fun r => ∀ c : Dev nD,
      r.2.mem ((c : Thread nD τ).loc main_v0)
        = weights (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m hx hq hk c), (h c).2⟩) (Value.run_blocks m ρ)

end Real

end Cert.KernelIdeal.BlockValue

end
-- ==== Proof.lean ====
/-
  The certificate of a graph-attention kernel against its reference: both compute, per batch, the softmax DOWN the
  columns of the score matrix `Σ_a Q[n,a] · K[m,a]`, where Q and K are the leaky rectifier of the node features projected
  on two weight matrices.
  - The frames of the kernel (at the word level and idealized) are the generated frame runs; the reference's frame is
    its generated run with the result dropped.
  - The idealization rewrote no operation, so `preserves` has nothing to state.
  - At the extended reals both programs end with the same array, the attention weights of the three argument arrays:
    the reference by reading its run one operation at a time (it divides each exponential by its column sum); the
    kernel block by block, each grid point writing all 2048 rows of 512 columns, where it multiplies each exponential
    by the reciprocal of its column sum. The two agree because the arguments are real numbers (the precondition), so
    every score, column maximum and exponential is real and every column sum a positive real.
-/
import proofs.«412591_j7224134992186_3_alg».proof.Defs
import proofs.«412591_j7224134992186_3_alg».proof.Proof.Gen.Kernel
import proofs.«412591_j7224134992186_3_alg».proof.Proof.Gen.Kernel.Skeleton
import proofs.«412591_j7224134992186_3_alg».proof.Proof.Gen.Kernel.Launch
import proofs.«412591_j7224134992186_3_alg».proof.Proof.Gen.Kernel.Points
import proofs.«412591_j7224134992186_3_alg».proof.Proof.Gen.Kernel.Frame
import proofs.«412591_j7224134992186_3_alg».proof.Proof.Gen.KernelIdeal
import proofs.«412591_j7224134992186_3_alg».proof.Proof.Gen.KernelIdeal.Skeleton
import proofs.«412591_j7224134992186_3_alg».proof.Proof.Gen.KernelIdeal.Launch
import proofs.«412591_j7224134992186_3_alg».proof.Proof.Gen.KernelIdeal.Points
import proofs.«412591_j7224134992186_3_alg».proof.Proof.Gen.KernelIdeal.Frame
import proofs.«412591_j7224134992186_3_alg».proof.Proof.Gen.ReferenceIdeal
import proofs.«412591_j7224134992186_3_alg».proof.Proof.Gen.Pre_finite_inputs
import proofs.«412591_j7224134992186_3_alg».proof.Proof.Gen.KernelIdeal.Value
import proofs.«412591_j7224134992186_3_alg».proof.Proof.Gen.ReferenceIdeal.Run
import proofs.«412591_j7224134992186_3_alg».proof.Proof.Gen.ReferenceIdeal.Read
import proofs.«412591_j7224134992186_3_alg».proof.Proof.Spec
import proofs.«412591_j7224134992186_3_alg».proof.Proof.Finite
import proofs.«412591_j7224134992186_3_alg».proof.Proof.RefValue
import proofs.«412591_j7224134992186_3_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the attention weights of the argument arrays: the kernel for real arguments, which
    the precondition gives; the reference always; and the two memories agree on the arguments. -/
theorem algebraic : Cert.algebraic_KernelIdeal_ReferenceIdeal := by
  intro m ρ m' ρ' hpre hagree
  have hreal := fun c : Dev Cert.KernelIdeal.nD =>
    Cert.Pre_finite_inputs.RealInputs.real_of_pre _ _ _ (hpre c)
  refine ⟨fun c => Cert.ColSoftmax.weights
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.BlockValue.run m ρ (fun c => (hreal c).1) (fun c => (hreal c).2.1) (fun c => (hreal c).2.2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefValue.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
